-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 2] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S256x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  main_v3
-- ==== Pre_finite_inputs_ReferenceIdeal.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Kernel.lean ====
abbrev S256x256 : Shape := ⟨2, ![256, 256]⟩
abbrev S2 : Shape := ⟨1, ![2]⟩
abbrev S_ : Shape := ⟨0, ![]⟩
abbrev S1 : Shape := ⟨1, ![1]⟩
abbrev S128x256 : Shape := ⟨2, ![128, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v17 : BitVec 32 := Scalar.muli v2 c4_i32_11
  let v18 : BitVec 32 := Scalar.addi c0_i32_12 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v19 : BitVec 32 := Scalar.muli v5 c2_i32_13
  let v20 : BitVec 32 := Scalar.addi v18 v19
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_14 : BitVec 32 := 1#32
  let v21 : BitVec 32 := Scalar.muli v9 c1_i32_14
  let v22 : BitVec 32 := Scalar.addi v20 v21
  v22.toNat
def k0_dev3 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v29 : BitVec 32 := Scalar.muli v2 c4_i32_21
  let v30 : BitVec 32 := Scalar.addi c0_i32_22 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v31 : BitVec 32 := Scalar.muli v5 c2_i32_23
  let v32 : BitVec 32 := Scalar.addi v30 v31
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_24 : BitVec 32 := 1#32
  let v33 : BitVec 32 := Scalar.muli v9 c1_i32_24
  let v34 : BitVec 32 := Scalar.addi v32 v33
  v34.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S2_S1_0 : ∀ a, (![0] : Fin 1 → Nat) a + S1.size a ≤ S2.size a
  squeezes_S1_S_ : S1.Squeezes S_
  inb_S256x256_S128x256_0_0 : ∀ a, (![0, 0] : Fin 2 → Nat) a + S128x256.size a ≤ S256x256.size a
  inb_S2_S1_1 : ∀ a, (![1] : Fin 1 → Nat) a + S1.size a ≤ S2.size a
  inb_S256x256_S128x256_128_0 : ∀ a, (![128, 0] : Fin 2 → Nat) a + S128x256.size a ≤ S256x256.size a
  h_S128x256 : 0 < S128x256.numel
  shapeCasts_S128x256_S128x256 : S128x256.ShapeCasts S128x256
  hcc0_scratch1 : 2 + S2.numel ≤ 6
  hcc0_scratch2 : 4 + S2.numel ≤ 6
  k0_dev1_lt : ∀ d0 : Dev nD, (k0_dev1 d0) < nD
  k0_dev2_lt : ∀ d0 : Dev nD, (k0_dev2 d0) < nD
  k0_dev3_lt : ∀ d0 : Dev nD, (k0_dev3 d0) < nD
  hstage0_0 : ∀ j, (stage0_0 j).IsWhole
  hstage0_1 : ∀ j, (stage0_1 j).IsWhole

variable [Facts₀]

abbrev cc0_scratch1 : DmaSems sig S2 := SemArray.consecutive 2 S2 hcc0_scratch1
abbrev cc0_scratch2 : DmaSems sig S2 := SemArray.consecutive 4 S2 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x256 : Shape := ⟨2, ![512, 256]⟩
abbrev S2x256x256 : Shape := ⟨3, ![2, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S2x256x256, .f32⟩
  | .hbm, ⟨2, _⟩ => ⟨S_, .f32⟩
  | .hbm, ⟨3, _⟩ => ⟨S256x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S512x256_S2x256x256 : S512x256.ShapeCasts S2x256x256
  reducesTo_S2x256x256_S256x256_d0 : S2x256x256.ReducesTo [0] S256x256
  h_S_ : 0 < S_.numel

variable [Facts₀]

class Facts : Prop extends Facts₀ where

variable [Facts]
-- ==== Proof.KernelProto.lean ====
/-
  The exchange between a device and its partner along the last mesh axis, as a protocol over semaphore cells.

  Device `c` and its partner `peer c` (the device whose last coordinate is the other one) each hold a 256-row block.
  A device first tells its partner that it has entered (one unit on the partner's entry cell), waits for the same
  word from the partner, then copies the two 128-row halves of its block into the partner's landing buffer, each
  half on its own pair of cells: the departure cell on the sender, the arrival cell on the receiver. After the arrival
  of half `k` it adds its own half `k` to what landed and stores the sum; at the end it waits for both departures.

  Cells of a device: entry (one duty, one unit, paid by the partner; it carries the partner's landing buffer and that
  the partner's arrival cells are open), departure 0/1 (one duty each, paid by the device's own copy; it returns the
  half share of the source rows lent to the copy), arrival 0/1 (one duty each, paid by the partner's copy; it carries
  the rows of the landing buffer, now holding the partner's rows).
-/
import proofs.«900703_g7700000000000704_dist_ar_v7x_xyz2x2x2_z_m256_n256_f32_1_alg».proof.Proof.Gen.Kernel
import proofs.«900703_g7700000000000704_dist_ar_v7x_xyz2x2x2_z_m256_n256_f32_1_alg».proof.Proof.Gen.Kernel.Skeleton
import proofs.«900703_g7700000000000704_dist_ar_v7x_xyz2x2x2_z_m256_n256_f32_1_alg».proof.Proof.Gen.Kernel.Launch
import proofs.«900703_g7700000000000704_dist_ar_v7x_xyz2x2x2_z_m256_n256_f32_1_alg».proof.Proof.Gen.Kernel.Points
import Idealize.ShloMosaic.Lib.Pipeline.Launch
import Idealize.ShloMosaic.Lib.Pipeline.Kit
import Idealize.ShloMosaic.Lib.Tactic

noncomputable section

namespace Cert.KernelAR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (one duty a round) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def st0 : MemSt nD τ sig (Elt F) := ⟨m, fun _ => 0, ρ⟩

/-! ## The partner -/

/-- The device with the other last coordinate: the id with its lowest bit flipped. -/
def peer (c : Dev nD) : Dev nD :=
  ⟨(4 * (c.val / 4) + 2 * ((c.val / 2) % 2) + 1) - (c.val % 2), by have h : c.val < 8 := c.isLt; show _ < 8; omega⟩

theorem peer_peer (c : Dev nD) : peer (peer c) = c := by revert c; decide
theorem peer_ne (c : Dev nD) : peer c ≠ c := by revert c; decide

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

def pairing : Dev nD ≃ Dev nD := ⟨peer, peer, peer_peer, peer_peer⟩

/-! ## The memrefs and cells -/

abbrev xM : Memref sig .tc .vmem S256x256 .f32 := Memref.whole cc0_stg0_0
abbrev oM : Memref sig .tc .vmem S256x256 .f32 := Memref.whole cc0_stg1_0
abbrev rM : Memref sig .tc .vmem S256x256 .f32 := Memref.whole cc0_scratch0

/-- The two halves of the rows: rows 0–127 and rows 128–255. -/
abbrev r0 : Rect S256x256 := Rect.unit (s := S256x256) ![0, 0] S128x256.size inb_S256x256_S128x256_0_0
abbrev r1 : Rect S256x256 := Rect.unit (s := S256x256) ![128, 0] S128x256.size inb_S256x256_S128x256_128_0

abbrev xS0 : Memref sig .tc .vmem S128x256 .f32 := xM.slice r0 (fun _ => rfl)
abbrev xS1 : Memref sig .tc .vmem S128x256 .f32 := xM.slice r1 (fun _ => rfl)
abbrev rS0 : Memref sig .tc .vmem S128x256 .f32 := rM.slice r0 (fun _ => rfl)
abbrev rS1 : Memref sig .tc .vmem S128x256 .f32 := rM.slice r1 (fun _ => rfl)

/-- The entry semaphore (the runtime's, not scoped to the launch) and the four transfer semaphores (scoped). -/
abbrev barS : Sem sig := (SemArray.scalar (sig.barrier 0 rfl) : Sems sig S_).sem
abbrev snd0 : DmaSems sig S_ := (cc0_scratch1.slice (Rect.unit (s := S2) ![0] S1.size inb_S2_S1_0)).squeeze S_ squeezes_S1_S_
abbrev snd1 : DmaSems sig S_ := (cc0_scratch1.slice (Rect.unit (s := S2) ![1] S1.size inb_S2_S1_1)).squeeze S_ squeezes_S1_S_
abbrev rcv0 : DmaSems sig S_ := (cc0_scratch2.slice (Rect.unit (s := S2) ![0] S1.size inb_S2_S1_0)).squeeze S_ squeezes_S1_S_
abbrev rcv1 : DmaSems sig S_ := (cc0_scratch2.slice (Rect.unit (s := S2) ![1] S1.size inb_S2_S1_1)).squeeze S_ squeezes_S1_S_

abbrev barCell (c : Dev nD) : GSem nD τ sig := ((c : Thread nD τ), .reg barS)
abbrev s0Cell (c : Dev nD) : GSem nD τ sig := ((c : Thread nD τ), .dma snd0.sem)
abbrev s1Cell (c : Dev nD) : GSem nD τ sig := ((c : Thread nD τ), .dma snd1.sem)
abbrev v0Cell (c : Dev nD) : GSem nD τ sig := ((c : Thread nD τ), .dma rcv0.sem)
abbrev v1Cell (c : Dev nD) : GSem nD τ sig := ((c : Thread nD τ), .dma rcv1.sem)

/-- The kernel's own (scoped) semaphores, as the launch indexes them; -/
abbrev osem : Fin 4 → SemLoc sig := fun | 0 => .dma snd0.sem | 1 => .dma snd1.sem | 2 => .dma rcv0.sem | 3 => .dma rcv1.sem
/-- all five of the exchange's: entry, departures, arrivals. -/
abbrev csem : Fin 5 → SemLoc sig := fun | 0 => .reg barS | 1 => .dma snd0.sem | 2 => .dma snd1.sem | 3 => .dma rcv0.sem | 4 => .dma rcv1.sem
abbrev kcell (ck : Dev nD × Fin 5) : GSem nD τ sig := ((ck.1 : Thread nD τ), csem ck.2)

/-- What a transfer of one half credits. -/
abbrev N : ℕ := (rS0 : Memref sig .tc .vmem S128x256 .f32).view.dmaCredit
theorem N_pos : 0 < N := View.dmaCredit_pos _ (by decide)
theorem N_r1 : (rS1 : Memref sig .tc .vmem S128x256 .f32).view.dmaCredit = N := rfl
theorem N_x0 : (xS0 : Memref sig .tc .vmem S128x256 .f32).view.dmaCredit = N := rfl
theorem N_x1 : (xS1 : Memref sig .tc .vmem S128x256 .f32).view.dmaCredit = N := rfl

/-! ## Contents -/

/-- Device `c`'s block as staged. -/
def xstg (c : Dev nD) : (cc0_stg0_0 : Ref sig .tc).ty.Contents (Elt F) :=
  (win0_0.blk (0 : Fin 1)).view.read (Elt F) ((st0 m ρ).mem ((c : Thread nD τ).loc main_arg0))

/-- What ends in device `c`'s landing buffer: the partner's block. -/
def landed (c : Dev nD) : Buf (Elt F) ((rM : Memref sig .tc .vmem S256x256 .f32).view.loc (c : Thread nD τ)) := xstg m ρ (peer c)

/-- The landing buffer, whole, at some contents. -/
def scrPts (c : Dev nD) (f : Buf (Elt F) ((rM : Memref sig .tc .vmem S256x256 .f32).view.loc (c : Thread nD τ))) : sProp 𝕄 :=
  (rM : Memref sig .tc .vmem S256x256 .f32).view.loc (c : Thread nD τ) ↦[(rM : Memref sig .tc .vmem S256x256 .f32).view.set]{fullShare} f

/-- The half share of rows `k` of the staged block that a copy borrows. -/
def xLent0 (c : Dev nD) : sProp 𝕄 :=
  (xS0 : Memref sig .tc .vmem S128x256 .f32).view.loc (c : Thread nD τ) ↦[(xS0 : Memref sig .tc .vmem S128x256 .f32).view.set]{fullShare.left} xstg m ρ c
def xLent1 (c : Dev nD) : sProp 𝕄 :=
  (xS1 : Memref sig .tc .vmem S128x256 .f32).view.loc (c : Thread nD τ) ↦[(xS1 : Memref sig .tc .vmem S128x256 .f32).view.set]{fullShare.left} xstg m ρ c
/-- Rows `k` of the landing buffer holding the partner's rows. -/
def rGot0 (c : Dev nD) : sProp 𝕄 :=
  (rS0 : Memref sig .tc .vmem S128x256 .f32).view.loc (c : Thread nD τ) ↦[(rS0 : Memref sig .tc .vmem S128x256 .f32).view.set]{fullShare} landed m ρ c
def rGot1 (c : Dev nD) : sProp 𝕄 :=
  (rS1 : Memref sig .tc .vmem S128x256 .f32).view.loc (c : Thread nD τ) ↦[(rS1 : Memref sig .tc .vmem S128x256 .f32).view.set]{fullShare} landed m ρ c

omit [FloatOps F] in
instance scrPts_storable (c : Dev nD) (f) : BI.Storable (upEmb : UEmb _ 𝕄) (scrPts (F := F) c f) := by unfold scrPts; infer_instance
omit [FloatOps F] in
instance xLent0_storable (c : Dev nD) : BI.Storable (upEmb : UEmb _ 𝕄) (xLent0 (F := F) m ρ c) := by unfold xLent0; infer_instance
omit [FloatOps F] in
instance xLent1_storable (c : Dev nD) : BI.Storable (upEmb : UEmb _ 𝕄) (xLent1 (F := F) m ρ c) := by unfold xLent1; infer_instance
omit [FloatOps F] in
instance rGot0_storable (c : Dev nD) : BI.Storable (upEmb : UEmb _ 𝕄) (rGot0 (F := F) m ρ c) := by unfold rGot0; infer_instance
omit [FloatOps F] in
instance rGot1_storable (c : Dev nD) : BI.Storable (upEmb : UEmb _ 𝕄) (rGot1 (F := F) m ρ c) := by unfold rGot1; infer_instance

omit [FloatOps F] in
theorem scr_set : (rM : Memref sig .tc .vmem S256x256 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

/-! ## The schedule -/

/-- What the partner's entry signal hands `c`: the partner's landing buffer and that both of the partner's arrival
    cells are at round 0 (what the two copies into it need). -/
def barPay (c : Dev nD) : sProp 𝕄 :=
  iprop((∃ f, scrPts (peer c) f) ∗ reached ER (v0Cell (peer c)) 0 ∗ reached ER (v1Cell (peer c)) 0)

abbrev IsMine (g : GSem nD τ sig) : Prop :=
  g.1.2 = .tc ∧ (g.2 = .reg barS ∨ g.2 = .dma snd0.sem ∨ g.2 = .dma snd1.sem ∨ g.2 = .dma rcv0.sem ∨ g.2 = .dma rcv1.sem)

/-- One round, round 0; every cell of the exchange has the one duty `()`: an entry cell of one unit, a departure or
    arrival cell of a half's credit. -/
def exRd : Rounds.Schedule (GSem nD τ sig) Unit 𝕄 where
  duties g r := if r = 0 ∧ IsMine g then {()} else ∅
  unitless _ := False
  amount g _ _ := if g.2 = .reg barS then 1 else N
  payload g _ _ :=
    if g.2 = .reg barS then barPay g.1.1
    else if g.2 = .dma snd0.sem then xLent0 m ρ g.1.1
    else if g.2 = .dma snd1.sem then xLent1 m ρ g.1.1
    else if g.2 = .dma rcv0.sem then rGot0 m ρ g.1.1
    else if g.2 = .dma rcv1.sem then rGot1 m ρ g.1.1
    else iprop(emp)
  amount_pos g _ _ _ := by
    by_cases h : g.2 = .reg barS
    · rw [if_pos h]; exact Nat.one_pos
    · rw [if_neg h]; exact N_pos

instance exRd_payload_storable (g : GSem nD τ sig) (r : ℕ) (d : Unit) :
    BI.Storable (upEmb : UEmb _ 𝕄) ((exRd (F := F) m ρ).payload g r d) := by
  show BI.Storable upEmb (if g.2 = .reg barS then barPay g.1.1
    else if g.2 = .dma snd0.sem then xLent0 m ρ g.1.1
    else if g.2 = .dma snd1.sem then xLent1 m ρ g.1.1
    else if g.2 = .dma rcv0.sem then rGot0 m ρ g.1.1
    else if g.2 = .dma rcv1.sem then rGot1 m ρ g.1.1
    else iprop(emp))
  unfold barPay
  (repeat' split) <;> infer_instance

section Sched
variable (c : Dev nD)

theorem s0_ne_bar : (SemLoc.dma snd0.sem : SemLoc sig) ≠ .reg barS := fun h => by cases h
theorem s1_ne_bar : (SemLoc.dma snd1.sem : SemLoc sig) ≠ .reg barS := fun h => by cases h
theorem v0_ne_bar : (SemLoc.dma rcv0.sem : SemLoc sig) ≠ .reg barS := fun h => by cases h
theorem v1_ne_bar : (SemLoc.dma rcv1.sem : SemLoc sig) ≠ .reg barS := fun h => by cases h
theorem s1_ne_s0 : (SemLoc.dma snd1.sem : SemLoc sig) ≠ .dma snd0.sem := by decide
theorem v0_ne_s0 : (SemLoc.dma rcv0.sem : SemLoc sig) ≠ .dma snd0.sem := by decide
theorem v0_ne_s1 : (SemLoc.dma rcv0.sem : SemLoc sig) ≠ .dma snd1.sem := by decide
theorem v1_ne_s0 : (SemLoc.dma rcv1.sem : SemLoc sig) ≠ .dma snd0.sem := by decide
theorem v1_ne_s1 : (SemLoc.dma rcv1.sem : SemLoc sig) ≠ .dma snd1.sem := by decide
theorem v1_ne_v0 : (SemLoc.dma rcv1.sem : SemLoc sig) ≠ .dma rcv0.sem := by decide

omit [FloatOps F] in
theorem duties_bar : (exRd (F := F) m ρ).duties (barCell c) 0 = {()} := by dsimp only [exRd]; exact if_pos ⟨rfl, rfl, .inl rfl⟩
omit [FloatOps F] in
theorem duties_s0 : (exRd (F := F) m ρ).duties (s0Cell c) 0 = {()} := by dsimp only [exRd]; exact if_pos ⟨rfl, rfl, .inr (.inl rfl)⟩
omit [FloatOps F] in
theorem duties_s1 : (exRd (F := F) m ρ).duties (s1Cell c) 0 = {()} := by dsimp only [exRd]; exact if_pos ⟨rfl, rfl, .inr (.inr (.inl rfl))⟩
omit [FloatOps F] in
theorem duties_v0 : (exRd (F := F) m ρ).duties (v0Cell c) 0 = {()} := by dsimp only [exRd]; exact if_pos ⟨rfl, rfl, .inr (.inr (.inr (.inl rfl)))⟩
omit [FloatOps F] in
theorem duties_v1 : (exRd (F := F) m ρ).duties (v1Cell c) 0 = {()} := by dsimp only [exRd]; exact if_pos ⟨rfl, rfl, .inr (.inr (.inr (.inr rfl)))⟩
omit [FloatOps F] in
theorem duties_later (g : GSem nD τ sig) : ∀ r, 1 ≤ r → (exRd (F := F) m ρ).duties g r = ∅ :=
  fun r hr => by dsimp only [exRd]; rw [if_neg fun h => by omega]

omit [FloatOps F] in
theorem amount_bar (d : Unit) : (exRd (F := F) m ρ).amount (barCell c) 0 d = 1 := by dsimp only [exRd]; exact if_pos rfl
omit [FloatOps F] in
theorem amount_s0 (d : Unit) : (exRd (F := F) m ρ).amount (s0Cell c) 0 d = N := by dsimp only [exRd]; exact if_neg s0_ne_bar
omit [FloatOps F] in
theorem amount_s1 (d : Unit) : (exRd (F := F) m ρ).amount (s1Cell c) 0 d = N := by dsimp only [exRd]; exact if_neg s1_ne_bar
omit [FloatOps F] in
theorem amount_v0 (d : Unit) : (exRd (F := F) m ρ).amount (v0Cell c) 0 d = N := by dsimp only [exRd]; exact if_neg v0_ne_bar
omit [FloatOps F] in
theorem amount_v1 (d : Unit) : (exRd (F := F) m ρ).amount (v1Cell c) 0 d = N := by dsimp only [exRd]; exact if_neg v1_ne_bar

omit [FloatOps F] in
theorem expect_bar : (exRd (F := F) m ρ).expect (barCell c) 0 = 1 := by
  unfold Schedule.expect Schedule.amountOf; rw [duties_bar, Finset.sum_singleton, amount_bar]
omit [FloatOps F] in
theorem expect_s0 : (exRd (F := F) m ρ).expect (s0Cell c) 0 = N := by
  unfold Schedule.expect Schedule.amountOf; rw [duties_s0, Finset.sum_singleton, amount_s0]
omit [FloatOps F] in
theorem expect_s1 : (exRd (F := F) m ρ).expect (s1Cell c) 0 = N := by
  unfold Schedule.expect Schedule.amountOf; rw [duties_s1, Finset.sum_singleton, amount_s1]
omit [FloatOps F] in
theorem expect_v0 : (exRd (F := F) m ρ).expect (v0Cell c) 0 = N := by
  unfold Schedule.expect Schedule.amountOf; rw [duties_v0, Finset.sum_singleton, amount_v0]
omit [FloatOps F] in
theorem expect_v1 : (exRd (F := F) m ρ).expect (v1Cell c) 0 = N := by
  unfold Schedule.expect Schedule.amountOf; rw [duties_v1, Finset.sum_singleton, amount_v1]

omit [FloatOps F] in
theorem payload_bar (d : Unit) : (exRd (F := F) m ρ).payload (barCell c) 0 d = barPay c := by dsimp only [exRd]; rw [if_pos rfl]
omit [FloatOps F] in
theorem payload_s0 (d : Unit) : (exRd (F := F) m ρ).payload (s0Cell c) 0 d = xLent0 m ρ c := by
  dsimp only [exRd]; rw [if_neg s0_ne_bar, if_pos rfl]
omit [FloatOps F] in
theorem payload_s1 (d : Unit) : (exRd (F := F) m ρ).payload (s1Cell c) 0 d = xLent1 m ρ c := by
  dsimp only [exRd]; rw [if_neg s1_ne_bar, if_neg s1_ne_s0, if_pos rfl]
omit [FloatOps F] in
theorem payload_v0 (d : Unit) : (exRd (F := F) m ρ).payload (v0Cell c) 0 d = rGot0 m ρ c := by
  dsimp only [exRd]; rw [if_neg v0_ne_bar, if_neg v0_ne_s0, if_neg v0_ne_s1, if_pos rfl]
omit [FloatOps F] in
theorem payload_v1 (d : Unit) : (exRd (F := F) m ρ).payload (v1Cell c) 0 d = rGot1 m ρ c := by
  dsimp only [exRd]; rw [if_neg v1_ne_bar, if_neg v1_ne_s0, if_neg v1_ne_s1, if_neg v1_ne_v0, if_pos rfl]

omit [FloatOps F] in
/-- The rest of a cell's round, nothing taken yet: its one payload. -/
theorem rest_bar : bigSep ((exRd (F := F) m ρ).duties (barCell c) 0 \ ∅) (fun d => (exRd (F := F) m ρ).payload (barCell c) 0 d) = barPay c := by
  rw [Finset.sdiff_empty, duties_bar, bigSep_singleton, payload_bar]
omit [FloatOps F] in
theorem rest_s0 : bigSep ((exRd (F := F) m ρ).duties (s0Cell c) 0 \ ∅) (fun d => (exRd (F := F) m ρ).payload (s0Cell c) 0 d) = xLent0 m ρ c := by
  rw [Finset.sdiff_empty, duties_s0, bigSep_singleton, payload_s0]
omit [FloatOps F] in
theorem rest_s1 : bigSep ((exRd (F := F) m ρ).duties (s1Cell c) 0 \ ∅) (fun d => (exRd (F := F) m ρ).payload (s1Cell c) 0 d) = xLent1 m ρ c := by
  rw [Finset.sdiff_empty, duties_s1, bigSep_singleton, payload_s1]
omit [FloatOps F] in
theorem rest_v0 : bigSep ((exRd (F := F) m ρ).duties (v0Cell c) 0 \ ∅) (fun d => (exRd (F := F) m ρ).payload (v0Cell c) 0 d) = rGot0 m ρ c := by
  rw [Finset.sdiff_empty, duties_v0, bigSep_singleton, payload_v0]
omit [FloatOps F] in
theorem rest_v1 : bigSep ((exRd (F := F) m ρ).duties (v1Cell c) 0 \ ∅) (fun d => (exRd (F := F) m ρ).payload (v1Cell c) 0 d) = rGot1 m ρ c := by
  rw [Finset.sdiff_empty, duties_v1, bigSep_singleton, payload_v1]

end Sched

/-! ## What each device owes at launch; the levels -/

/-- After its entry signal a device still owes the partner's two arrival cells a half's credit each; -/
def O₁ (c : Dev nD) : CellTallies nD τ sig Unit := tallyAt (v1Cell (peer c)) () N + tallyAt (v0Cell (peer c)) () N
/-- at launch also the partner's entry cell one unit (summed so that each action peels the last summand). -/
def O₀ (c : Dev nD) : CellTallies nD τ sig Unit := O₁ c + tallyAt (barCell (peer c)) () 1

def L (g : GSem nD τ sig) : Finset Unit := if g.1.2 = .tc then {()} else ∅
/-- entry cells at 1, arrival cells at 2, everything else (staging, departures) at 0. -/
def lv (g : GSem nD τ sig) (_ : Unit) : ℕ :=
  if g.2 = .reg barS then 1 else if g.2 = .dma rcv0.sem ∨ g.2 = .dma rcv1.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) :
    g = v1Cell (peer c) ∨ g = v0Cell (peer c) := by
  unfold O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = v1Cell (peer c) ∨ g = v0Cell (peer c) ∨ g = barCell (peer c) := by
  unfold O₀ O₁ at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem lv_bar (c : Dev nD) (u : Unit) : lv (barCell c) u = 1 := by dsimp only [lv]; rw [if_pos rfl]
theorem lv_v0 (c : Dev nD) (u : Unit) : lv (v0Cell c) u = 2 := by dsimp only [lv]; rw [if_neg v0_ne_bar, if_pos (.inl rfl)]
theorem lv_v1 (c : Dev nD) (u : Unit) : lv (v1Cell c) u = 2 := by dsimp only [lv]; rw [if_neg v1_ne_bar, if_pos (.inr rfl)]

omit [FloatOps F] in
/-- A staging cell (level 0) may be waited on whatever the device owes of the exchange. -/
theorem mayWait_stage (c : Dev nD) (q : DmaSem sig) (hq0 : SemLoc.dma q ≠ .dma rcv0.sem) (hq1 : SemLoc.dma q ≠ .dma rcv1.sem)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by
        rw [Finset.mem_singleton.mp hp]; dsimp only [lv]
        rw [if_neg (fun h => by cases h), if_neg (fun h => h.elim hq0 hq1)])
      (fun g u hg => by
        rcases O₀_pos hg with rfl | rfl | rfl
        · rw [lv_v1]; decide
        · rw [lv_v0]; decide
        · rw [lv_bar]; decide)
  · rw [MayWait_zero]; iintro -; iempintro

omit [FloatOps F] in
/-- At its entry wait a device owes the partner's arrival credits only: arrival cells, above its entry cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact le_of_eq (lv_bar c ()))
    (fun g u hg => by
      rcases O₁_pos hg with rfl | rfl
      · rw [lv_v1]; decide
      · rw [lv_v0]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result block on device `c`: rows 0–127 the sum of the two devices' rows 0–127, rows 128–255 likewise
    (the two stores' payloads laid over any contents: they cover the block). -/
def outAt (c : Dev nD) : (cc0_stg1_0 : Ref sig .tc).ty.Contents (Elt F) :=
  ((oM : Memref sig .tc .vmem S256x256 .f32).access r1 : View sig .tc _ _ _).write (Elt F)
    (((oM : Memref sig .tc .vmem S256x256 .f32).access r0 : View sig .tc _ _ _).write (Elt F) (xstg m ρ c)
      (k0_pay2 ((xM : Memref sig .tc .vmem S256x256 .f32).view.readAt (Elt F) r0.toLoadRect (xstg m ρ c))
        ((rM : Memref sig .tc .vmem S256x256 .f32).view.readAt (Elt F) r0.toLoadRect (landed m ρ c))) Finset.univ)
    (k0_pay1 ((xM : Memref sig .tc .vmem S256x256 .f32).view.readAt (Elt F) r1.toLoadRect (xstg m ρ c))
      ((rM : Memref sig .tc .vmem S256x256 .f32).view.readAt (Elt F) r1.toLoadRect (landed m ρ c))) Finset.univ

/-- The cells' invariants device `c`'s body opens, under the names `K` the launch allocated them at: its own five, the
    partner's entry cell (its signal) and the partner's two arrival cells (its copies). -/
def invs (K : Dev nD × Fin 5 → ℕ) (c : Dev nD) : sProp 𝕄 :=
  iprop(cellInv ER (exRd m ρ) (K (c, 0)) (barCell c) ∗ cellInv ER (exRd m ρ) (K (c, 1)) (s0Cell c) ∗ cellInv ER (exRd m ρ) (K (c, 2)) (s1Cell c)
    ∗ cellInv ER (exRd m ρ) (K (c, 3)) (v0Cell c) ∗ cellInv ER (exRd m ρ) (K (c, 4)) (v1Cell c)
    ∗ cellInv ER (exRd m ρ) (K (peer c, 0)) (barCell (peer c))
    ∗ cellInv ER (exRd m ρ) (K (peer c, 3)) (v0Cell (peer c)) ∗ cellInv ER (exRd m ρ) (K (peer c, 4)) (v1Cell (peer c)))

instance invs_persistent (K : Dev nD × Fin 5 → ℕ) (c : Dev nD) : BI.Persistent (invs m ρ K c) := by unfold invs; infer_instance

/-- The exchange's ghost state device `c` starts from: the invariants; its positions at round 0 of its five cells; round 0
    reached of the cells it pays and of its own departure and arrival cells; the five duty tokens it pays with — the
    partner's entry duty, the partner's two arrival duties, its own two departure duties. -/
def ghost (K : Dev nD × Fin 5 → ℕ) (c : Dev nD) : sProp 𝕄 :=
  iprop(invs m ρ K c
    ∗ atPos ER (barCell c) 0 ∅ 0 ∗ atPos ER (s0Cell c) 0 ∅ 0 ∗ atPos ER (s1Cell c) 0 ∅ 0 ∗ atPos ER (v0Cell c) 0 ∅ 0 ∗ atPos ER (v1Cell c) 0 ∅ 0
    ∗ reached ER (barCell (peer c)) 0 ∗ reached ER (v0Cell (peer c)) 0 ∗ reached ER (v1Cell (peer c)) 0
    ∗ reached ER (s0Cell c) 0 ∗ reached ER (s1Cell c) 0 ∗ reached ER (v0Cell c) 0 ∗ reached ER (v1Cell c) 0
    ∗ dutyTok ER (barCell (peer c)) 0 () ∗ dutyTok ER (v0Cell (peer c)) 0 () ∗ dutyTok ER (v1Cell (peer c)) 0 ()
    ∗ dutyTok ER (s0Cell c) 0 () ∗ dutyTok ER (s1Cell c) 0 ())

/-- What device `c`'s body starts from: that at some names, its three credit tokens (its entry cell's unit, its arrival
    cells' credits) and the level facts. -/
def start (c : Dev nD) : sProp 𝕄 :=
  iprop((∃ K, ghost m ρ K c) ∗ cred (tallyAt (barCell c) () 1) ∗ cred (tallyAt (v0Cell c) () N) ∗ cred (tallyAt (v1Cell c) () N) ∗ levAts L lv)

def Φ₀ (c : Dev nD) : sProp 𝕄 := iprop(start m ρ c ∗ ∃ f, scrPts c f)
/-- After the point: the landing buffer holding the partner's block, the four own cells at zero, closed. -/
def Φ₁ (c : Dev nD) : sProp 𝕄 :=
  iprop(scrPts c (landed m ρ c) ∗ semVal (s0Cell c) 0 ∗ semVal (s1Cell c) 0 ∗ semVal (v0Cell c) 0 ∗ semVal (v1Cell c) 0)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body at the one point, and what the body hands back. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

end Cert.KernelAR

end
-- ==== Proof.KernelViews.lean ====
/-
  The staged block, the landing buffer and the result block cut into their two row halves: the pure facts about
  regions of a buffer (a points-to splits along disjoint element sets and along shares), about what a copy of one
  half lands, and about the two stores covering the result block.
-/
import proofs.«900703_g7700000000000704_dist_ar_v7x_xyz2x2x2_z_m256_n256_f32_1_alg».proof.Proof.KernelProto
import Idealize.ShloMosaic.Lib.Pipeline.Value

noncomputable section

namespace Cert.KernelAR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two row halves as element sets -/

/-- Rows 0–127 and rows 128–255 are disjoint. -/
theorem rows_disj : Disjoint (r0.set) (r1.set) :=
  Rect.unit_disjoint (0 : Fin 2) (Or.inl (by decide))

/-- Every element is in rows 0–127 or in rows 128–255. -/
theorem rows_cover : r0.set ∪ r1.set = (Finset.univ : Finset S256x256.Idx) := by
  ext i
  simp only [Finset.mem_union, Finset.mem_univ, iff_true]
  have h0 : (i 0 : Nat) < 256 := (i 0).isLt
  have h1 : (i 1 : Nat) < 256 := (i 1).isLt
  by_cases h : (i 0 : Nat) < 128
  · left
    rw [Rect.mem_set_unit]
    refine Fin.forall_fin_two.mpr ⟨?_, ?_⟩
    · show (0 : Nat) ≤ (i 0 : Nat) ∧ (i 0 : Nat) < 0 + 128
      omega
    · show (0 : Nat) ≤ (i 1 : Nat) ∧ (i 1 : Nat) < 0 + 256
      omega
  · right
    rw [Rect.mem_set_unit]
    refine Fin.forall_fin_two.mpr ⟨?_, ?_⟩
    · show (128 : Nat) ≤ (i 0 : Nat) ∧ (i 0 : Nat) < 128 + 128
      omega
    · show (0 : Nat) ≤ (i 1 : Nat) ∧ (i 1 : Nat) < 0 + 256
      omega

omit [FloatOps F] in
/-- A whole-buffer points-to cut along two disjoint element sets that cover the buffer. -/
theorem pt_cut {ℓ : Loc nD τ sig} {A B : Finset (Idx ℓ)} (hd : Disjoint A B) (hc : A ∪ B = Finset.univ)
    (q : PosShare TreeShare) (f : Buf (Elt F) ℓ) :
    (ℓ ↦{q} f : sProp 𝕄) ⊣⊢ iprop((ℓ ↦[A]{q} f) ∗ ℓ ↦[B]{q} f) := by
  have h := pointsTo_union (nD := nD) (τ := τ) (sig := sig) (Ix := Unit) (Val := Elt F) (Name := ℕ) (U := UU) (Lvl := ℕ) (q := q) (f := f) hd
  rw [hc] at h
  exact h

/-- The elements under each half-slice are the rows of its rectangle. -/
theorem xset0 : (xS0 : Memref sig .tc .vmem S128x256 .f32).view.set = r0.set := View.set_slice_whole _ _
theorem xset1 : (xS1 : Memref sig .tc .vmem S128x256 .f32).view.set = r1.set := View.set_slice_whole _ _
theorem rset0 : (rS0 : Memref sig .tc .vmem S128x256 .f32).view.set = r0.set := View.set_slice_whole _ _
theorem rset1 : (rS1 : Memref sig .tc .vmem S128x256 .f32).view.set = r1.set := View.set_slice_whole _ _
theorem oset0 : ((oM : Memref sig .tc .vmem S256x256 .f32).access r0 : View sig .tc _ _ _).setOn Finset.univ = r0.set := View.set_slice_whole _ _
theorem oset1 : ((oM : Memref sig .tc .vmem S256x256 .f32).access r1 : View sig .tc _ _ _).setOn Finset.univ = r1.set := View.set_slice_whole _ _

theorem x_disj : Disjoint (xS0 : Memref sig .tc .vmem S128x256 .f32).view.set (xS1 : Memref sig .tc .vmem S128x256 .f32).view.set := by
  rw [xset0, xset1]; exact rows_disj
theorem x_cover : (xS0 : Memref sig .tc .vmem S128x256 .f32).view.set ∪ (xS1 : Memref sig .tc .vmem S128x256 .f32).view.set = Finset.univ := by
  rw [xset0, xset1]; exact rows_cover
theorem r_disj : Disjoint (rS0 : Memref sig .tc .vmem S128x256 .f32).view.set (rS1 : Memref sig .tc .vmem S128x256 .f32).view.set := by
  rw [rset0, rset1]; exact rows_disj
theorem r_cover : (rS0 : Memref sig .tc .vmem S128x256 .f32).view.set ∪ (rS1 : Memref sig .tc .vmem S128x256 .f32).view.set = Finset.univ := by
  rw [rset0, rset1]; exact rows_cover

/-- The half share of rows `k` of the staged block that stays with the device while a copy borrows the other half. -/
def xKept0 (c : Dev nD) : sProp 𝕄 :=
  (xS0 : Memref sig .tc .vmem S128x256 .f32).view.loc (c : Thread nD τ) ↦[(xS0 : Memref sig .tc .vmem S128x256 .f32).view.set]{fullShare.right} xstg m ρ c
def xKept1 (c : Dev nD) : sProp 𝕄 :=
  (xS1 : Memref sig .tc .vmem S128x256 .f32).view.loc (c : Thread nD τ) ↦[(xS1 : Memref sig .tc .vmem S128x256 .f32).view.set]{fullShare.right} xstg m ρ c

omit [FloatOps F] in
/-- The staged block, whole at the full share, is its two row halves, each as two half shares. -/
theorem x_split (c : Dev nD) :
    (((c : Thread nD τ).loc cc0_stg0_0) ↦{fullShare} xstg m ρ c : sProp 𝕄)
      ⊣⊢ iprop(xLent0 m ρ c ∗ xKept0 m ρ c ∗ xLent1 m ρ c ∗ xKept1 m ρ c) := by
  unfold xLent0 xKept0 xLent1 xKept1
  have hcut := pt_cut (F := F) (ℓ := (c : Thread nD τ).loc cc0_stg0_0) x_disj x_cover fullShare (xstg m ρ c)
  have hs0 := pointsTo_share (nD := nD) (τ := τ) (sig := sig) (Ix := Unit) (Val := Elt F) (Name := ℕ) (U := UU) (Lvl := ℕ)
    (ℓ := (c : Thread nD τ).loc cc0_stg0_0) (I := (xS0 : Memref sig .tc .vmem S128x256 .f32).view.set) (f := xstg m ρ c)
    (PosShare.mem_left_op_right fullShare)
  have hs1 := pointsTo_share (nD := nD) (τ := τ) (sig := sig) (Ix := Unit) (Val := Elt F) (Name := ℕ) (U := UU) (Lvl := ℕ)
    (ℓ := (c : Thread nD τ).loc cc0_stg0_0) (I := (xS1 : Memref sig .tc .vmem S128x256 .f32).view.set) (f := xstg m ρ c)
    (PosShare.mem_left_op_right fullShare)
  show _ ⊣⊢ iprop((((c : Thread nD τ).loc cc0_stg0_0) ↦[(xS0 : Memref sig .tc .vmem S128x256 .f32).view.set]{fullShare.left} xstg m ρ c)
    ∗ (((c : Thread nD τ).loc cc0_stg0_0) ↦[(xS0 : Memref sig .tc .vmem S128x256 .f32).view.set]{fullShare.right} xstg m ρ c)
    ∗ (((c : Thread nD τ).loc cc0_stg0_0) ↦[(xS1 : Memref sig .tc .vmem S128x256 .f32).view.set]{fullShare.left} xstg m ρ c)
    ∗ (((c : Thread nD τ).loc cc0_stg0_0) ↦[(xS1 : Memref sig .tc .vmem S128x256 .f32).view.set]{fullShare.right} xstg m ρ c))
  rw [BI.equiv_iff.mp ⟨hcut.1, hcut.2⟩, BI.equiv_iff.mp ⟨hs0.1, hs0.2⟩, BI.equiv_iff.mp ⟨hs1.1, hs1.2⟩]
  exact sep_assoc

omit [FloatOps F] in
/-- The landing buffer, whole at contents `f`, is its two row halves at `f`. -/
theorem scr_split (c : Dev nD) (f : Buf (Elt F) ((rM : Memref sig .tc .vmem S256x256 .f32).view.loc (c : Thread nD τ))) :
    scrPts c f ⊣⊢ iprop(((rS0 : Memref sig .tc .vmem S128x256 .f32).view.loc (c : Thread nD τ) ↦[(rS0 : Memref sig .tc .vmem S128x256 .f32).view.set]{fullShare} f)
      ∗ ((rS1 : Memref sig .tc .vmem S128x256 .f32).view.loc (c : Thread nD τ) ↦[(rS1 : Memref sig .tc .vmem S128x256 .f32).view.set]{fullShare} f)) := by
  rw [scrPts_eq]
  exact pt_cut (F := F) (ℓ := (c : Thread nD τ).loc cc0_scratch0) r_disj r_cover fullShare f

omit [FloatOps F] in
/-- Both halves landed: the landing buffer holds the partner's block. -/
theorem scr_join (c : Dev nD) : iprop(rGot0 m ρ c ∗ rGot1 m ρ c) ⊢ scrPts c (landed m ρ c) := by
  unfold rGot0 rGot1
  exact (scr_split c (landed m ρ c)).2

omit [FloatOps F] in
/-- What the copy of rows 0–127 of `c`'s staged block lands in the partner's landing buffer, whatever that held:
    on those rows, `c`'s block — the partner's arrival payload. -/
theorem land0 (c : Dev nD) (fd : Buf (Elt F) ((rS0 : Memref sig .tc .vmem S128x256 .f32).view.loc (peer c : Thread nD τ))) :
    ((rS0 : Memref sig .tc .vmem S128x256 .f32).view.loc (peer c : Thread nD τ) ↦[(rS0 : Memref sig .tc .vmem S128x256 .f32).view.set]{fullShare}
        ((rS0 : Memref sig .tc .vmem S128x256 .f32).view.write (Elt F) fd ((xS0 : Memref sig .tc .vmem S128x256 .f32).view.read (Elt F) (xstg m ρ c)) Finset.univ) : sProp 𝕄)
      ⊢ rGot0 m ρ (peer c) := by
  unfold rGot0 landed
  rw [peer_peer]
  refine Entails.of_eq (pointsTo_congr ?_)
  intro i hi
  obtain ⟨x, -, rfl⟩ := Finset.mem_map.mp hi
  rw [View.write_emb_of_mem _ _ (Finset.mem_univ x), View.read_apply, cast_cast, cast_eq]
  rfl

omit [FloatOps F] in
theorem land1 (c : Dev nD) (fd : Buf (Elt F) ((rS1 : Memref sig .tc .vmem S128x256 .f32).view.loc (peer c : Thread nD τ))) :
    ((rS1 : Memref sig .tc .vmem S128x256 .f32).view.loc (peer c : Thread nD τ) ↦[(rS1 : Memref sig .tc .vmem S128x256 .f32).view.set]{fullShare}
        ((rS1 : Memref sig .tc .vmem S128x256 .f32).view.write (Elt F) fd ((xS1 : Memref sig .tc .vmem S128x256 .f32).view.read (Elt F) (xstg m ρ c)) Finset.univ) : sProp 𝕄)
      ⊢ rGot1 m ρ (peer c) := by
  unfold rGot1 landed
  rw [peer_peer]
  refine Entails.of_eq (pointsTo_congr ?_)
  intro i hi
  obtain ⟨x, -, rfl⟩ := Finset.mem_map.mp hi
  rw [View.write_emb_of_mem _ _ (Finset.mem_univ x), View.read_apply, cast_cast, cast_eq]
  rfl

omit [FloatOps F] in
/-- A load of rows `k` through the whole memref touches only rows `k`. -/
theorem x_load0_sub : (xM : Memref sig .tc .vmem S256x256 .f32).view.setOn r0.toLoadRect.set ⊆ (xS0 : Memref sig .tc .vmem S128x256 .f32).view.set := by
  rw [xset0]
  show Finset.map (Function.Embedding.refl _) r0.set ⊆ r0.set
  rw [Finset.map_refl]
omit [FloatOps F] in
theorem x_load1_sub : (xM : Memref sig .tc .vmem S256x256 .f32).view.setOn r1.toLoadRect.set ⊆ (xS1 : Memref sig .tc .vmem S128x256 .f32).view.set := by
  rw [xset1]
  show Finset.map (Function.Embedding.refl _) r1.set ⊆ r1.set
  rw [Finset.map_refl]
omit [FloatOps F] in
theorem r_load0_sub : (rM : Memref sig .tc .vmem S256x256 .f32).view.setOn r0.toLoadRect.set ⊆ (rS0 : Memref sig .tc .vmem S128x256 .f32).view.set := by
  rw [rset0]
  show Finset.map (Function.Embedding.refl _) r0.set ⊆ r0.set
  rw [Finset.map_refl]
omit [FloatOps F] in
theorem r_load1_sub : (rM : Memref sig .tc .vmem S256x256 .f32).view.setOn r1.toLoadRect.set ⊆ (rS1 : Memref sig .tc .vmem S128x256 .f32).view.set := by
  rw [rset1]
  show Finset.map (Function.Embedding.refl _) r1.set ⊆ r1.set
  rw [Finset.map_refl]

omit [FloatOps F] in
/-- The two stores cover the result block: what they leave does not depend on what the block held. -/
theorem out_indep (g g' : (cc0_stg1_0 : Ref sig .tc).ty.Contents (Elt F)) (w0 w1 : S128x256.Idx → Elt F .f32) :
    ((oM : Memref sig .tc .vmem S256x256 .f32).access r1 : View sig .tc _ _ _).write (Elt F)
        (((oM : Memref sig .tc .vmem S256x256 .f32).access r0 : View sig .tc _ _ _).write (Elt F) g w0 Finset.univ) w1 Finset.univ
      = ((oM : Memref sig .tc .vmem S256x256 .f32).access r1 : View sig .tc _ _ _).write (Elt F)
        (((oM : Memref sig .tc .vmem S256x256 .f32).access r0 : View sig .tc _ _ _).write (Elt F) g' w0 Finset.univ) w1 Finset.univ := by
  funext i
  refine View.write_congr (fun _ _ _ => rfl) fun h1 => View.write_congr (fun _ _ _ => rfl) fun h0 => ?_
  exfalso
  rw [oset1] at h1
  rw [oset0] at h0
  have hc := Finset.mem_univ (i : S256x256.Idx)
  rw [← rows_cover] at hc
  rcases Finset.mem_union.mp hc with h | h
  · exact h0 h
  · exact h1 h

/-- info: 'Cert.KernelAR.x_split' depends on axioms: [propext, Classical.choice, Quot.sound] -/
#guard_msgs in #print axioms x_split

/-- info: 'Cert.KernelAR.land0' depends on axioms: [propext, Classical.choice, Quot.sound] -/
#guard_msgs in #print axioms land0

/-- info: 'Cert.KernelAR.out_indep' depends on axioms: [propext, Classical.choice, Quot.sound] -/
#guard_msgs in #print axioms out_indep

end Cert.KernelAR

end
-- ==== Proof.KernelBody.lean ====
/-
  One device's body, stepped from the exchange's ghost state: the entry signal to the partner and the wait for the
  partner's; the two copies of the row halves into the partner's landing buffer, each lending a half share of its source
  rows; per half, the wait for the partner's rows, the sum of own and landed rows stored into the result block; the
  waits for the two departures, which return the lent shares; the four own cells closed.
-/
import proofs.«900703_g7700000000000704_dist_ar_v7x_xyz2x2x2_z_m256_n256_f32_1_alg».proof.Proof.KernelViews

noncomputable section

namespace Cert.KernelAR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 5 → ℕ)

/-- The copy of rows 0–127 to the partner, at the exchange's cells: it borrows the half share of the source rows (back at the
    departure) and rewrites the partner's rows (the partner's arrival payload); the partner is named by a variable equal
    to `peer c`, substituted. -/
theorem wp_send0 (c n : Dev nD) (hn : n = peer c)
    {hsc : (rS0 : Memref sig (Dev.tc n : Thread nD τ).2.kind .vmem S128x256 .f32).view.ref.isScScratch = false}
    {hsrc : (xS0 : Memref sig .tc .vmem S128x256 .f32).view.WordExact} {hdst : (rS0 : Memref sig .tc .vmem S128x256 .f32).view.WordExact}
    {hsem : DmaTarget.Typed .vmem (.dma rcv0.sem) (.remote (Dev.tc n : Thread nD τ) (rS0 : Memref sig .tc .vmem S128x256 .f32) (.dma snd0.sem) hsc)}
    {α : Type} {Q : α → sProp 𝕄} {k : PUnit → Prog (TpuEff nD τ sig (Elt F) Λ₀ .tc) α}
    (fn : Buf (Elt F) ((rS0 : Memref sig .tc .vmem S128x256 .f32).view.loc (peer c : Thread nD τ))) (O : CellTallies nD τ sig Unit) (W : Waits sig Unit) :
    iprop(cellInv ER (exRd m ρ) (K (c, 1)) (s0Cell c) ∗ cellInv ER (exRd m ρ) (K (peer c, 3)) (v0Cell (peer c))
        ∗ xLent0 m ρ c
        ∗ ((rS0 : Memref sig .tc .vmem S128x256 .f32).view.loc (peer c : Thread nD τ) ↦[(rS0 : Memref sig .tc .vmem S128x256 .f32).view.set]{fullShare} fn)
        ∗ owes (c : Thread nD τ) (O + tallyAt (v0Cell (peer c)) () N) W
        ∗ dutyTok ER (s0Cell c) 0 () ∗ reached ER (s0Cell c) 0
        ∗ dutyTok ER (v0Cell (peer c)) 0 () ∗ reached ER (v0Cell (peer c)) 0)
      ⊢ iprop(((cred (tallyAt (s0Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xS0 (.remote (Dev.tc n : Thread nD τ) rS0 (.dma snd0.sem) hsc) (.dma rcv0.sem) hsrc hdst hsem) k) Q) := by
  subst hn
  unfold xLent0
  exact Rounds.wp_send_pointsTo 𝒱₀ ER (exRd m ρ) (c : Thread nD τ) none (κ₁ := K (c, 1)) (κ₂ := K (peer c, 3))
    (r₁ := 0) (r₂ := 0) (d₁ := ()) (d₂ := ()) (fd := fn)
    (by rw [duties_s0]; exact Finset.mem_singleton_self _) (by rw [duties_v0]; exact Finset.mem_singleton_self _)
    () () N rfl (amount_s0 m ρ c ()) (amount_v0 m ρ (peer c) ()) O rfl (W := W)
    (by rw [payload_s0]; unfold xLent0; exact BI.Entails.refl _)
    (by rw [payload_v0]; exact land0 m ρ c fn)

/-- The copy of rows 128–255 to the partner, at the exchange's cells: it borrows the half share of the source rows (back at the
    departure) and rewrites the partner's rows (the partner's arrival payload); the partner is named by a variable equal
    to `peer c`, substituted. -/
theorem wp_send1 (c n : Dev nD) (hn : n = peer c)
    {hsc : (rS1 : Memref sig (Dev.tc n : Thread nD τ).2.kind .vmem S128x256 .f32).view.ref.isScScratch = false}
    {hsrc : (xS1 : Memref sig .tc .vmem S128x256 .f32).view.WordExact} {hdst : (rS1 : Memref sig .tc .vmem S128x256 .f32).view.WordExact}
    {hsem : DmaTarget.Typed .vmem (.dma rcv1.sem) (.remote (Dev.tc n : Thread nD τ) (rS1 : Memref sig .tc .vmem S128x256 .f32) (.dma snd1.sem) hsc)}
    {α : Type} {Q : α → sProp 𝕄} {k : PUnit → Prog (TpuEff nD τ sig (Elt F) Λ₀ .tc) α}
    (fn : Buf (Elt F) ((rS1 : Memref sig .tc .vmem S128x256 .f32).view.loc (peer c : Thread nD τ))) (O : CellTallies nD τ sig Unit) (W : Waits sig Unit) :
    iprop(cellInv ER (exRd m ρ) (K (c, 2)) (s1Cell c) ∗ cellInv ER (exRd m ρ) (K (peer c, 4)) (v1Cell (peer c))
        ∗ xLent1 m ρ c
        ∗ ((rS1 : Memref sig .tc .vmem S128x256 .f32).view.loc (peer c : Thread nD τ) ↦[(rS1 : Memref sig .tc .vmem S128x256 .f32).view.set]{fullShare} fn)
        ∗ owes (c : Thread nD τ) (O + tallyAt (v1Cell (peer c)) () N) W
        ∗ dutyTok ER (s1Cell c) 0 () ∗ reached ER (s1Cell c) 0
        ∗ dutyTok ER (v1Cell (peer c)) 0 () ∗ reached ER (v1Cell (peer c)) 0)
      ⊢ iprop(((cred (tallyAt (s1Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xS1 (.remote (Dev.tc n : Thread nD τ) rS1 (.dma snd1.sem) hsc) (.dma rcv1.sem) hsrc hdst hsem) k) Q) := by
  subst hn
  unfold xLent1
  exact Rounds.wp_send_pointsTo 𝒱₀ ER (exRd m ρ) (c : Thread nD τ) none (κ₁ := K (c, 2)) (κ₂ := K (peer c, 4))
    (r₁ := 0) (r₂ := 0) (d₁ := ()) (d₂ := ()) (fd := fn)
    (by rw [duties_s1]; exact Finset.mem_singleton_self _) (by rw [duties_v1]; exact Finset.mem_singleton_self _)
    () () N rfl (amount_s1 m ρ c ()) (amount_v1 m ρ (peer c) ()) O rfl (W := W)
    (by rw [payload_s1]; unfold xLent1; exact BI.Entails.refl _)
    (by rw [payload_v1]; exact land1 m ρ c fn)

/-- What the body is stepped from: the start state opened at the names `K`, the landing buffer, what the device owes,
    and the two staging buffers as the pipeline hands them over. -/
def bodyPre (c : Dev nD) : sProp 𝕄 :=
  iprop((ghost m ρ K c ∗ cred (tallyAt (barCell c) () 1) ∗ cred (tallyAt (v0Cell c) () N) ∗ cred (tallyAt (v1Cell c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxHeartbeats 1600000 in
set_option maxRecDepth 8000 in
/-- The body, one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId]
  unfold bodyPre ghost invs
  iintro ⟨⟨⟨⟨⟨#HIbar, #HIs0, #HIs1, #HIv0, #HIv1, #HIbarP, #HIv0P, #HIv1P⟩, HatB, HatS0, HatS1, HatV0, HatV1, #HrBP, #HrV0P, #HrV1P, #HrS0, #HrS1, #HrV0, #HrV1,
      HtBP, HtV0P, HtV1P, HtS0, HtS1⟩, HcB, HcV0, HcV1, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c]
  -- the entry signal to the partner: with it go this device's landing buffer and that its arrival cells are open
  iapply (Rounds.wp_signal 𝒱₀ ER (exRd m ρ) (c : Thread nD τ) none (dst := (peer c : Thread nD τ)) (κ := K (peer c, 0))
      (d := ()) (by rw [duties_bar]; exact Finset.mem_singleton_self _) ((amount_bar m ρ (peer c) ()).trans (by decide)) () (O₁ c) rfl)
    $$ [HO HtBP Hscr]
  · isplitr; · iexact HIbarP
    isplitl [HO]; · iexact HO
    isplitl [HtBP]; · iexact HtBP
    isplitl [Hscr]
    · rw [payload_bar]; unfold barPay; rw [peer_peer]
      isplitl [Hscr]; · iexists f0; iexact Hscr
      isplitr; · iexact HrV0
      iexact HrV1
    · iexact HrBP
  iintro HO
  -- the wait for the partner's entry signal, owing the partner's arrival credits: the partner's landing buffer comes with it
  iapply (Rounds.wp_wait_rest_token 𝒱₀ ER (exRd m ρ) (c : Thread nD τ) none (κ := K (c, 0))
      (wpE_semWait_eq 𝒱₀ (c : Thread nD τ) none Set.univ) (Set.mem_univ _) () (O := O₁ c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn, HscrN⟩, -, -⟩
  -- the partner's landing buffer by row halves; the staged block by row halves and half shares
  ihave Hs := (scr_split (peer c) fn).1 $$ HscrN
  icases Hs with ⟨HrP0, HrP1⟩
  ihave Hxs := (x_split m ρ c).1 $$ Hx
  icases Hxs with ⟨HxL0, HxK0, HxL1, HxK1⟩
  unfold O₁
  -- the copy of rows 0–127
  iapply (wp_send0 m ρ K c _ (dev2_eq c) fn (tallyAt (v1Cell (peer c)) () N) (insert (SemLoc.reg barS, ()) W)) $$ [HxL0 HrP0 HO HtS0 HtV0P]
  · isplitr; · iexact HIs0
    isplitr; · iexact HIv0P
    isplitl [HxL0]; · iexact HxL0
    isplitl [HrP0]; · iexact HrP0
    isplitl [HO]; · iexact HO
    isplitl [HtS0]; · iexact HtS0
    isplitr; · iexact HrS0
    isplitl [HtV0P]; · iexact HtV0P
    iexact HrV0P
  iintro ⟨HcS0, HO⟩
  -- the copy of rows 128–255
  iapply (wp_send1 m ρ K c _ (dev3_eq c) fn 0 (insert (SemLoc.reg barS, ()) W)) $$ [HxL1 HrP1 HO HtS1 HtV1P]
  · isplitr; · iexact HIs1
    isplitr; · iexact HIv1P
    isplitl [HxL1]; · iexact HxL1
    isplitl [HrP1]; · iexact HrP1
    isplitl [HO]; · rw [zero_add]; iexact HO
    isplitl [HtS1]; · iexact HtS1
    isplitr; · iexact HrS1
    isplitl [HtV1P]; · iexact HtV1P
    iexact HrV1P
  iintro ⟨HcS1, HO⟩
  -- the arrival of rows 0–127: the partner's rows in the landing buffer
  iapply (Rounds.wp_wait_rest_token 𝒱₀ ER (exRd m ρ) (c : Thread nD τ) none (κ := K (c, 3))
      (wpE_waitDma2_eq 𝒱₀ (c : Thread nD τ) none Set.univ) (Set.mem_univ _) () (O := 0) (W := insert (SemLoc.reg barS, ()) W) (R := 0) (m := 0) (T := ∅)
      (by rw [Nat.zero_add, expect_v0])) $$ [HcV0 HO HatV0]
  · isplitr; · iexact HIv0
    isplitl [HcV0]; · iexact HcV0
    isplitl [HO]; · iexact HO
    isplitr; · rw [MayWait_zero]; iempintro
    iexact HatV0
  iintro ⟨HO, HatV0, -, Hpay⟩
  ihave Hr0 := (Entails.of_eq (rest_v0 m ρ c)) $$ Hpay
  unfold rGot0 xKept0
  iapply (wp_load 𝒱₀ (c : Thread nD τ) none Set.univ (m := xM) x_load0_sub) $$ HxK0; iintro HxK0
  iapply (wp_load 𝒱₀ (c : Thread nD τ) none Set.univ (m := rM) r_load0_sub) $$ Hr0; iintro Hr0
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  -- the arrival of rows 128–255
  iapply (Rounds.wp_wait_rest_token 𝒱₀ ER (exRd m ρ) (c : Thread nD τ) none (κ := K (c, 4))
      (wpE_waitDma2_eq 𝒱₀ (c : Thread nD τ) none Set.univ) (Set.mem_univ _) () (O := 0) (W := insert (SemLoc.dma rcv0.sem, ()) (insert (SemLoc.reg barS, ()) W)) (R := 0) (m := 0) (T := ∅)
      (by rw [Nat.zero_add, expect_v1])) $$ [HcV1 HO HatV1]
  · isplitr; · iexact HIv1
    isplitl [HcV1]; · iexact HcV1
    isplitl [HO]; · iexact HO
    isplitr; · rw [MayWait_zero]; iempintro
    iexact HatV1
  iintro ⟨HO, HatV1, -, Hpay⟩
  ihave Hr1 := (Entails.of_eq (rest_v1 m ρ c)) $$ Hpay
  unfold rGot1 xKept1
  iapply (wp_load 𝒱₀ (c : Thread nD τ) none Set.univ (m := xM) x_load1_sub) $$ HxK1; iintro HxK1
  iapply (wp_load 𝒱₀ (c : Thread nD τ) none Set.univ (m := rM) r_load1_sub) $$ Hr1; iintro Hr1
  iapply (wp_load 𝒱₀ (c : Thread nD τ) none Set.univ (m := oM) (Finset.subset_univ _)) $$ Hout; iintro Hout
  iapply (wp_store 𝒱₀ (c : Thread nD τ) none Set.univ (m := oM) (r := r1) (Mk := Finset.univ) (Finset.subset_univ _)) $$ Hout; iintro Hout
  -- the two departures: the lent half shares come back
  iapply (Rounds.wp_wait_rest_token 𝒱₀ ER (exRd m ρ) (c : Thread nD τ) none (κ := K (c, 1))
      (wpE_waitDma2_eq 𝒱₀ (c : Thread nD τ) none Set.univ) (Set.mem_univ _) () (O := 0) (W := insert (SemLoc.dma rcv1.sem, ()) (insert (SemLoc.dma rcv0.sem, ()) (insert (SemLoc.reg barS, ()) W))) (R := 0) (m := 0) (T := ∅)
      (by rw [Nat.zero_add, expect_s0])) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave HxL0 := (Entails.of_eq (rest_s0 m ρ c)) $$ Hpay
  iapply (Rounds.wp_wait_rest_token 𝒱₀ ER (exRd m ρ) (c : Thread nD τ) none (κ := K (c, 2))
      (wpE_waitDma2_eq 𝒱₀ (c : Thread nD τ) none Set.univ) (Set.mem_univ _) () (O := 0) (W := insert (SemLoc.dma snd0.sem, ()) (insert (SemLoc.dma rcv1.sem, ()) (insert (SemLoc.dma rcv0.sem, ()) (insert (SemLoc.reg barS, ()) W)))) (R := 0) (m := 0) (T := ∅)
      (by rw [Nat.zero_add, expect_s1])) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave HxL1 := (Entails.of_eq (rest_s1 m ρ c)) $$ Hpay
  -- the four own cells close: their counters at zero are the core's again
  imod (Rounds.cell_close ER (exRd m ρ) (Set.mem_univ (K (c, 1))) (fun h => h) (R := 0 + 1) (duties_later m ρ (s0Cell c))) $$ [HatS0] with HzS0
  · isplitr; · iexact HIs0
    iexact HatS0
  imod (Rounds.cell_close ER (exRd m ρ) (Set.mem_univ (K (c, 2))) (fun h => h) (R := 0 + 1) (duties_later m ρ (s1Cell c))) $$ [HatS1] with HzS1
  · isplitr; · iexact HIs1
    iexact HatS1
  imod (Rounds.cell_close ER (exRd m ρ) (Set.mem_univ (K (c, 3))) (fun h => h) (R := 0 + 1) (duties_later m ρ (v0Cell c))) $$ [HatV0] with HzV0
  · isplitr; · iexact HIv0
    iexact HatV0
  imod (Rounds.cell_close ER (exRd m ρ) (Set.mem_univ (K (c, 4))) (fun h => h) (R := 0 + 1) (duties_later m ρ (v1Cell c))) $$ [HatV1] with HzV1
  · isplitr; · iexact HIv1
    iexact HatV1
  rw [wp_ret]; imodintro
  iapply Hk
  unfold bodyPost Φ₁ Dat.owesAt Pipeline.owesWithin
  rw [show (dats m ρ 0 c).owed t₀.succ = 0 from rfl]
  isplitl [Hr0 Hr1 HzS0 HzS1 HzV0 HzV1]
  · isplitl [Hr0 Hr1]
    · iapply (scr_join m ρ c)
      unfold rGot0 rGot1
      isplitl [Hr0]; · iexact Hr0
      iexact Hr1
    isplitl [HzS0]; · iexact HzS0
    isplitl [HzS1]; · iexact HzS1
    isplitl [HzV0]; · iexact HzV0
    iexact HzV1
  isplitl [HO]
  · iexists (insert (SemLoc.dma snd1.sem, ()) (insert (SemLoc.dma snd0.sem, ()) (insert (SemLoc.dma rcv1.sem, ()) (insert (SemLoc.dma rcv0.sem, ()) (insert (SemLoc.reg barS, ()) W)))))
    isplitr; · ipureintro; exact fun _ _ => Or.inl trivial
    iexact HO
  isplitl [HxL0 HxK0 HxL1 HxK1]
  · iexists _; isplitr; · (ipureintro; rfl)
    iapply (x_split m ρ c).2
    unfold xKept0 xKept1
    isplitl [HxL0]; · iexact HxL0
    isplitl [HxK0]; · iexact HxK0
    isplitl [HxL1]; · iexact HxL1
    iexact HxK1
  rw [out_indep g1 (xstg m ρ c)]
  iexists (outAt m ρ c); isplitr
  · ipureintro; rfl
  unfold outAt; iexact Hout

end Body

set_option maxRecDepth 4000 in
/-- The pipeline's body obligation on device `c`: the one point's precondition opened at the start state's names. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

/-- info: 'Cert.KernelAR.body_obligation' depends on axioms: [propext, Classical.choice, Quot.sound] -/
#guard_msgs in #print axioms body_obligation

end Cert.KernelAR

end
-- ==== Proof.KernelLaunch.lean ====
/-
  The launch of the exchange on the eight devices. Every device's five cells (its entry cell, its two departure
  cells, its two arrival cells) get their invariants under one update, because a device's entry cell and arrival
  cells are paid by its partner: the partner must hold those cells' invariants, round marks and duty tokens from
  the start. The duty tokens minted for a device's own cells are therefore dealt across each pair — the entry
  token and the two arrival tokens to the partner, the two departure tokens kept —, and the credit for what the
  partner owes (one unit on the entry cell, a half's credit on each arrival cell) comes back the same way, the
  partner map being its own inverse. The result array after the run is what the one point wrote back over it.
-/
import proofs.«900703_g7700000000000704_dist_ar_v7x_xyz2x2x2_z_m256_n256_f32_1_alg».proof.Proof.KernelProto

noncomputable section

namespace Cert.KernelAR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens minted at launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The forty cells of the exchange. -/
def exCells : Finset (GSem nD τ sig) := Finset.univ.map ⟨kcell, kcell_injective⟩

/-- Each cell has one duty, at round 0: its token as minted. -/
abbrev tokOf (ck : Dev nD × Fin 5) : GSem nD τ sig × ℕ × Unit := (kcell ck, 0, ())
theorem tokOf_injective : Function.Injective (tokOf : Dev nD × Fin 5 → GSem nD τ sig × ℕ × Unit) :=
  fun a b h => kcell_injective (congrArg Prod.fst h)
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The duty tokens of device `c`'s own five cells. -/
def toks (c : Dev nD) : sProp 𝕄 :=
  iprop(dutyTok ER (barCell c) 0 () ∗ dutyTok ER (s0Cell c) 0 () ∗ dutyTok ER (s1Cell c) 0 ()
    ∗ dutyTok ER (v0Cell c) 0 () ∗ dutyTok ER (v1Cell c) 0 ())

/-- What the launch element deals device `c`: its five cells' round states, positions and round marks, and their tokens. -/
def G (c : Dev nD) : sProp 𝕄 :=
  iprop((bigSep Finset.univ fun k : Fin 5 => roundState ER (exRd m ρ) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] in
theorem fund : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 5 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin5]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The departure and arrival semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (s0Cell c) 0 ∗ semVal (s1Cell c) 0 ∗ semVal (v0Cell c) 0 ∗ semVal (v1Cell c) 0) := by
  rw [Pipeline.ownSems0_eq_of_list c osem [0, 1, 2, 3] (by decide) (by decide)]; rfl
omit [FloatOps F] in
/-- the entry semaphore is the one semaphore not scoped to the launch. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨HS0, HS1, HV0, HV1⟩, HB⟩
  isplitl [HB]; · iexact HB
  isplitl [HS0]; · iexact HS0
  isplitl [HS1]; · iexact HS1
  isplitl [HV0] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (exRd m ρ) (kcell (c, k)) 0)
      ⊢ (|={Set.univ}=> bigSep Finset.univ fun k => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- All cells' invariants, under names `K`, and all cells' round-0 marks: what every device may read. -/
def records (K : Dev nD × Fin 5 → ℕ) : sProp 𝕄 :=
  iprop((bigSep Finset.univ fun ck : Dev nD × Fin 5 => cellInv ER (exRd m ρ) (K ck) (kcell ck))
    ∗ bigSep Finset.univ fun ck : Dev nD × Fin 5 => reached ER (kcell ck) 0)

instance records_persistent (K : Dev nD × Fin 5 → ℕ) : BI.Persistent (records m ρ K) := by unfold records; infer_instance

omit [FloatOps F] in
theorem inv_at (K : Dev nD × Fin 5 → ℕ) (ck : Dev nD × Fin 5) :
    (bigSep Finset.univ fun ck : Dev nD × Fin 5 => (cellInv ER (exRd m ρ) (K ck) (kcell ck) : sProp 𝕄)) ⊢ cellInv ER (exRd m ρ) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- The tokens of the duties device `c` pays: its partner's entry duty and two arrival duties, its own two departure duties. -/
def payToks (c : Dev nD) : sProp 𝕄 :=
  iprop(dutyTok ER (barCell (peer c)) 0 () ∗ dutyTok ER (v0Cell (peer c)) 0 () ∗ dutyTok ER (v1Cell (peer c)) 0 ()
    ∗ dutyTok ER (s0Cell c) 0 () ∗ dutyTok ER (s1Cell c) 0 ())
/-- What stays with device `c` alone: its positions on its five cells, and those tokens. -/
def linear (c : Dev nD) : sProp 𝕄 :=
  iprop((atPos ER (barCell c) 0 ∅ 0 ∗ atPos ER (s0Cell c) 0 ∅ 0 ∗ atPos ER (s1Cell c) 0 ∅ 0 ∗ atPos ER (v0Cell c) 0 ∅ 0 ∗ atPos ER (v1Cell c) 0 ∅ 0)
    ∗ payToks c)

omit [FloatOps F] in
theorem ghost_intro (K : Dev nD × Fin 5 → ℕ) (c : Dev nD) : iprop(records m ρ K ∗ linear c) ⊢ G' m ρ c := by
  unfold records linear payToks G' ghost invs
  iintro ⟨⟨#HI, #HR⟩, ⟨HaB, HaS0, HaS1, HaV0, HaV1⟩, HtB, HtV0, HtV1, HtS0, HtS1⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (peer c, 0)); iexact HI
    isplitr; · iapply (inv_at m ρ K (peer c, 3)); iexact HI
    iapply (inv_at m ρ K (peer c, 4)); iexact HI
  isplitl [HaB]; · iexact HaB
  isplitl [HaS0]; · iexact HaS0
  isplitl [HaS1]; · iexact HaS1
  isplitl [HaV0]; · iexact HaV0
  isplitl [HaV1]; · iexact HaV1
  isplitr; · iapply (reached_at (F := F) (peer c, 0)); iexact HR
  isplitr; · iapply (reached_at (F := F) (peer c, 3)); iexact HR
  isplitr; · iapply (reached_at (F := F) (peer c, 4)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitl [HtB]; · iexact HtB
  isplitl [HtV0]; · iexact HtV0
  isplitl [HtV1]; · iexact HtV1
  isplitl [HtS0]; · iexact HtS0
  iexact HtS1

omit [FloatOps F] in
/-- The tokens dealt across each pair: a device's entry token and its two arrival tokens go to its partner (who, the
    partner map being an involution, sends its own back); the departure tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pairing (fun c : Dev nD => (dutyTok ER (barCell c) 0 () : sProp 𝕄)),
    bigSep_univ_equiv pairing (fun c : Dev nD => (dutyTok ER (v0Cell c) 0 () : sProp 𝕄)),
    bigSep_univ_equiv pairing (fun c : Dev nD => (dutyTok ER (v1Cell c) 0 () : sProp 𝕄))]
  iintro ⟨HB, HS0, HS1, HV0, HV1⟩
  isplitl [HB]; · iexact HB
  isplitl [HV0]; · iexact HV0
  isplitl [HV1]; · iexact HV1
  isplitl [HS0]; · iexact HS0
  iexact HS1

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (exRd m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (exRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- What the devices owe device `c`'s cells comes from its partner alone — a unit on the entry cell, a half's credit on
    each arrival cell —, so that is the credit the launch deals `c`. -/
theorem creds (c : Dev nD) :
    (Pipeline.launchCred O₀ c : sProp 𝕄)
      ⊢ iprop(cred (tallyAt (barCell c) () 1) ∗ cred (tallyAt (v0Cell c) () N) ∗ cred (tallyAt (v1Cell c) () N)) := by
  have e0 : (Pipeline.launchCred O₀ c : sProp 𝕄)
      = iprop(Pipeline.launchCred O₁ c ∗ Pipeline.launchCred (fun d => tallyAt (barCell (peer d)) () 1) c) :=
    Pipeline.launchCred_add O₁ (fun d => tallyAt (barCell (peer d)) () 1) c
  have e1 : (Pipeline.launchCred O₁ c : sProp 𝕄)
      = iprop(Pipeline.launchCred (fun d => tallyAt (v1Cell (peer d)) () N) c ∗ Pipeline.launchCred (fun d => tallyAt (v0Cell (peer d)) () N) c) :=
    Pipeline.launchCred_add (fun d => tallyAt (v1Cell (peer d)) () N) (fun d => tallyAt (v0Cell (peer d)) () N) c
  rw [e0, e1]
  iintro ⟨⟨H1, H0⟩, HB⟩
  isplitl [HB]
  · iapply (Pipeline.launchCred_tallyAt (.reg barS) peer peer peer_peer peer_peer () 1 c); iexact HB
  isplitl [H0]
  · iapply (Pipeline.launchCred_tallyAt (.dma rcv0.sem) peer peer peer_peer peer_peer () N c); iexact H0
  · iapply (Pipeline.launchCred_tallyAt (.dma rcv1.sem) peer peer peer_peer peer_peer () N c); iexact H1

/-! ## Into the pipeline's invariant and out of it -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HB, H0, H1⟩
  imodintro
  unfold start G'
  isplitl
  · isplitl [HG]; · iexact HG
    isplitl [HB]; · iexact HB
    isplitl [H0]; · iexact H0
    isplitl [H1]; · iexact H1
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, HS0, HS1, HV0, HV1⟩
  isplitr; · iempintro
  isplitl [HS0 HS1 HV0 HV1]
  · isplitl [HS0]; · iexact HS0
    isplitl [HS1]; · iexact HS1
    isplitl [HV0] <;> iassumption
  iexists (landed m ρ c); rw [← scrPts_eq]; iexact Hr

/-- The pipeline's own waits are on the staging cells, none of them an arrival cell. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) (by fin_cases w <;> fin_cases s <;> decide) _ (by
      rcases t with ⟨_ | _, ht⟩
      · exact Or.inl rfl
      · exact Or.inr rfl)

/-! ## The run -/

/-- The arrays of the two windows after the run's one write-back. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the eight devices, for any float values, from any memory with zero counters: if each device's body meets its
    obligation, every weakly fair execution terminates, and every final state has each device's two arrays at `finalA`. -/
theorem run_main_of (hbody : ∀ c : Dev nD, BodyObligation (dats (F := F) m ρ 0 c) (defs₀ (F := F)) 𝒱₀ () Set.univ) :
    θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (st0 m ρ).mem (win0_0.arr.view.loc (c : Thread nD τ)) :=
  (dats (F := F) m ρ 0 c).arrAt_in (0 : Fin 2) rfl _

/-- The result array after the run is the block the one point wrote back: the window's block is the whole array, at
    block index 0, and the write-back is unmasked, so nothing of the earlier contents is left. -/
theorem finalA_out (c : Dev nD) : finalA m ρ c (1 : Fin 2) = outAt m ρ c := by
  unfold finalA
  have h := (dats (F := F) m ρ 0 c).arrAt_succ (1 : Fin 2) t₀
  rw [flush0_1 t₀, if_pos rfl] at h
  refine Eq.trans (show (dats m ρ 0 c).arrAt (1 : Fin 2) cfg0.N = (dats m ρ 0 c).arrAt (1 : Fin 2) (t₀.val + 1) from rfl) ?_
  rw [h]
  refine (Memref.write_access_unit_zero_univ (Elt F) main_v1 (off := fun a => win0_1.index t₀ a * win0_1.size a)
    (funext fun a => Nat.zero_mul _) _ ((dats m ρ 0 c).arrAt (1 : Fin 2) t₀.val) ((dats m ρ 0 c).flushed (1 : Fin 2) t₀)).trans ?_
  rfl

/-- info: 'Cert.KernelAR.run_main_of' depends on axioms: [propext, Classical.choice, Quot.sound] -/
#guard_msgs in #print axioms run_main_of
/-- info: 'Cert.KernelAR.finalA_x' depends on axioms: [propext, Classical.choice, Quot.sound] -/
#guard_msgs in #print axioms finalA_x
/-- info: 'Cert.KernelAR.finalA_out' depends on axioms: [propext, Classical.choice, Quot.sound] -/
#guard_msgs in #print axioms finalA_out

end Cert.KernelAR

end
-- ==== Proof.KernelIdealProto.lean ====
/-
  The exchange between a device and its partner along the last mesh axis, as a protocol over semaphore cells.

  Device `c` and its partner `peer c` (the device whose last coordinate is the other one) each hold a 256-row block.
  A device first tells its partner that it has entered (one unit on the partner's entry cell), waits for the same
  word from the partner, then copies the two 128-row halves of its block into the partner's landing buffer, each
  half on its own pair of cells: the departure cell on the sender, the arrival cell on the receiver. After the arrival
  of half `k` it adds its own half `k` to what landed and stores the sum; at the end it waits for both departures.

  Cells of a device: entry (one duty, one unit, paid by the partner; it carries the partner's landing buffer and that
  the partner's arrival cells are open), departure 0/1 (one duty each, paid by the device's own copy; it returns the
  half share of the source rows lent to the copy), arrival 0/1 (one duty each, paid by the partner's copy; it carries
  the rows of the landing buffer, now holding the partner's rows).
-/
import proofs.«900703_g7700000000000704_dist_ar_v7x_xyz2x2x2_z_m256_n256_f32_1_alg».proof.Proof.Gen.KernelIdeal
import proofs.«900703_g7700000000000704_dist_ar_v7x_xyz2x2x2_z_m256_n256_f32_1_alg».proof.Proof.Gen.KernelIdeal.Skeleton
import proofs.«900703_g7700000000000704_dist_ar_v7x_xyz2x2x2_z_m256_n256_f32_1_alg».proof.Proof.Gen.KernelIdeal.Launch
import proofs.«900703_g7700000000000704_dist_ar_v7x_xyz2x2x2_z_m256_n256_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdealAR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (one duty a round) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def st0 : MemSt nD τ sig (Elt F) := ⟨m, fun _ => 0, ρ⟩

/-! ## The partner -/

/-- The device with the other last coordinate: the id with its lowest bit flipped. -/
def peer (c : Dev nD) : Dev nD :=
  ⟨(4 * (c.val / 4) + 2 * ((c.val / 2) % 2) + 1) - (c.val % 2), by have h : c.val < 8 := c.isLt; show _ < 8; omega⟩

theorem peer_peer (c : Dev nD) : peer (peer c) = c := by revert c; decide
theorem peer_ne (c : Dev nD) : peer c ≠ c := by revert c; decide

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

def pairing : Dev nD ≃ Dev nD := ⟨peer, peer, peer_peer, peer_peer⟩

/-! ## The memrefs and cells -/

abbrev xM : Memref sig .tc .vmem S256x256 .f32 := Memref.whole cc0_stg0_0
abbrev oM : Memref sig .tc .vmem S256x256 .f32 := Memref.whole cc0_stg1_0
abbrev rM : Memref sig .tc .vmem S256x256 .f32 := Memref.whole cc0_scratch0

/-- The two halves of the rows: rows 0–127 and rows 128–255. -/
abbrev r0 : Rect S256x256 := Rect.unit (s := S256x256) ![0, 0] S128x256.size inb_S256x256_S128x256_0_0
abbrev r1 : Rect S256x256 := Rect.unit (s := S256x256) ![128, 0] S128x256.size inb_S256x256_S128x256_128_0

abbrev xS0 : Memref sig .tc .vmem S128x256 .f32 := xM.slice r0 (fun _ => rfl)
abbrev xS1 : Memref sig .tc .vmem S128x256 .f32 := xM.slice r1 (fun _ => rfl)
abbrev rS0 : Memref sig .tc .vmem S128x256 .f32 := rM.slice r0 (fun _ => rfl)
abbrev rS1 : Memref sig .tc .vmem S128x256 .f32 := rM.slice r1 (fun _ => rfl)

/-- The entry semaphore (the runtime's, not scoped to the launch) and the four transfer semaphores (scoped). -/
abbrev barS : Sem sig := (SemArray.scalar (sig.barrier 0 rfl) : Sems sig S_).sem
abbrev snd0 : DmaSems sig S_ := (cc0_scratch1.slice (Rect.unit (s := S2) ![0] S1.size inb_S2_S1_0)).squeeze S_ squeezes_S1_S_
abbrev snd1 : DmaSems sig S_ := (cc0_scratch1.slice (Rect.unit (s := S2) ![1] S1.size inb_S2_S1_1)).squeeze S_ squeezes_S1_S_
abbrev rcv0 : DmaSems sig S_ := (cc0_scratch2.slice (Rect.unit (s := S2) ![0] S1.size inb_S2_S1_0)).squeeze S_ squeezes_S1_S_
abbrev rcv1 : DmaSems sig S_ := (cc0_scratch2.slice (Rect.unit (s := S2) ![1] S1.size inb_S2_S1_1)).squeeze S_ squeezes_S1_S_

abbrev barCell (c : Dev nD) : GSem nD τ sig := ((c : Thread nD τ), .reg barS)
abbrev s0Cell (c : Dev nD) : GSem nD τ sig := ((c : Thread nD τ), .dma snd0.sem)
abbrev s1Cell (c : Dev nD) : GSem nD τ sig := ((c : Thread nD τ), .dma snd1.sem)
abbrev v0Cell (c : Dev nD) : GSem nD τ sig := ((c : Thread nD τ), .dma rcv0.sem)
abbrev v1Cell (c : Dev nD) : GSem nD τ sig := ((c : Thread nD τ), .dma rcv1.sem)

/-- The kernel's own (scoped) semaphores, as the launch indexes them; -/
abbrev osem : Fin 4 → SemLoc sig := fun | 0 => .dma snd0.sem | 1 => .dma snd1.sem | 2 => .dma rcv0.sem | 3 => .dma rcv1.sem
/-- all five of the exchange's: entry, departures, arrivals. -/
abbrev csem : Fin 5 → SemLoc sig := fun | 0 => .reg barS | 1 => .dma snd0.sem | 2 => .dma snd1.sem | 3 => .dma rcv0.sem | 4 => .dma rcv1.sem
abbrev kcell (ck : Dev nD × Fin 5) : GSem nD τ sig := ((ck.1 : Thread nD τ), csem ck.2)

/-- What a transfer of one half credits. -/
abbrev N : ℕ := (rS0 : Memref sig .tc .vmem S128x256 .f32).view.dmaCredit
theorem N_pos : 0 < N := View.dmaCredit_pos _ (by decide)
theorem N_r1 : (rS1 : Memref sig .tc .vmem S128x256 .f32).view.dmaCredit = N := rfl
theorem N_x0 : (xS0 : Memref sig .tc .vmem S128x256 .f32).view.dmaCredit = N := rfl
theorem N_x1 : (xS1 : Memref sig .tc .vmem S128x256 .f32).view.dmaCredit = N := rfl

/-! ## Contents -/

/-- Device `c`'s block as staged. -/
def xstg (c : Dev nD) : (cc0_stg0_0 : Ref sig .tc).ty.Contents (Elt F) :=
  (win0_0.blk (0 : Fin 1)).view.read (Elt F) ((st0 m ρ).mem ((c : Thread nD τ).loc main_arg0))

/-- What ends in device `c`'s landing buffer: the partner's block. -/
def landed (c : Dev nD) : Buf (Elt F) ((rM : Memref sig .tc .vmem S256x256 .f32).view.loc (c : Thread nD τ)) := xstg m ρ (peer c)

/-- The landing buffer, whole, at some contents. -/
def scrPts (c : Dev nD) (f : Buf (Elt F) ((rM : Memref sig .tc .vmem S256x256 .f32).view.loc (c : Thread nD τ))) : sProp 𝕄 :=
  (rM : Memref sig .tc .vmem S256x256 .f32).view.loc (c : Thread nD τ) ↦[(rM : Memref sig .tc .vmem S256x256 .f32).view.set]{fullShare} f

/-- The half share of rows `k` of the staged block that a copy borrows. -/
def xLent0 (c : Dev nD) : sProp 𝕄 :=
  (xS0 : Memref sig .tc .vmem S128x256 .f32).view.loc (c : Thread nD τ) ↦[(xS0 : Memref sig .tc .vmem S128x256 .f32).view.set]{fullShare.left} xstg m ρ c
def xLent1 (c : Dev nD) : sProp 𝕄 :=
  (xS1 : Memref sig .tc .vmem S128x256 .f32).view.loc (c : Thread nD τ) ↦[(xS1 : Memref sig .tc .vmem S128x256 .f32).view.set]{fullShare.left} xstg m ρ c
/-- Rows `k` of the landing buffer holding the partner's rows. -/
def rGot0 (c : Dev nD) : sProp 𝕄 :=
  (rS0 : Memref sig .tc .vmem S128x256 .f32).view.loc (c : Thread nD τ) ↦[(rS0 : Memref sig .tc .vmem S128x256 .f32).view.set]{fullShare} landed m ρ c
def rGot1 (c : Dev nD) : sProp 𝕄 :=
  (rS1 : Memref sig .tc .vmem S128x256 .f32).view.loc (c : Thread nD τ) ↦[(rS1 : Memref sig .tc .vmem S128x256 .f32).view.set]{fullShare} landed m ρ c

omit [FloatOps F] in
instance scrPts_storable (c : Dev nD) (f) : BI.Storable (upEmb : UEmb _ 𝕄) (scrPts (F := F) c f) := by unfold scrPts; infer_instance
omit [FloatOps F] in
instance xLent0_storable (c : Dev nD) : BI.Storable (upEmb : UEmb _ 𝕄) (xLent0 (F := F) m ρ c) := by unfold xLent0; infer_instance
omit [FloatOps F] in
instance xLent1_storable (c : Dev nD) : BI.Storable (upEmb : UEmb _ 𝕄) (xLent1 (F := F) m ρ c) := by unfold xLent1; infer_instance
omit [FloatOps F] in
instance rGot0_storable (c : Dev nD) : BI.Storable (upEmb : UEmb _ 𝕄) (rGot0 (F := F) m ρ c) := by unfold rGot0; infer_instance
omit [FloatOps F] in
instance rGot1_storable (c : Dev nD) : BI.Storable (upEmb : UEmb _ 𝕄) (rGot1 (F := F) m ρ c) := by unfold rGot1; infer_instance

omit [FloatOps F] in
theorem scr_set : (rM : Memref sig .tc .vmem S256x256 .f32).view.set = Finset.univ := View.set_whole _
omit [FloatOps F] in
theorem scrPts_eq (c : Dev nD) (f : Buf (Elt F) ((c : Thread nD τ).loc cc0_scratch0)) :
    scrPts c f = (((c : Thread nD τ).loc cc0_scratch0) ↦{fullShare} f : sProp 𝕄) := by unfold scrPts; rw [scr_set]

/-! ## The schedule -/

/-- What the partner's entry signal hands `c`: the partner's landing buffer and that both of the partner's arrival
    cells are at round 0 (what the two copies into it need). -/
def barPay (c : Dev nD) : sProp 𝕄 :=
  iprop((∃ f, scrPts (peer c) f) ∗ reached ER (v0Cell (peer c)) 0 ∗ reached ER (v1Cell (peer c)) 0)

abbrev IsMine (g : GSem nD τ sig) : Prop :=
  g.1.2 = .tc ∧ (g.2 = .reg barS ∨ g.2 = .dma snd0.sem ∨ g.2 = .dma snd1.sem ∨ g.2 = .dma rcv0.sem ∨ g.2 = .dma rcv1.sem)

/-- One round, round 0; every cell of the exchange has the one duty `()`: an entry cell of one unit, a departure or
    arrival cell of a half's credit. -/
def exRd : Rounds.Schedule (GSem nD τ sig) Unit 𝕄 where
  duties g r := if r = 0 ∧ IsMine g then {()} else ∅
  unitless _ := False
  amount g _ _ := if g.2 = .reg barS then 1 else N
  payload g _ _ :=
    if g.2 = .reg barS then barPay g.1.1
    else if g.2 = .dma snd0.sem then xLent0 m ρ g.1.1
    else if g.2 = .dma snd1.sem then xLent1 m ρ g.1.1
    else if g.2 = .dma rcv0.sem then rGot0 m ρ g.1.1
    else if g.2 = .dma rcv1.sem then rGot1 m ρ g.1.1
    else iprop(emp)
  amount_pos g _ _ _ := by
    by_cases h : g.2 = .reg barS
    · rw [if_pos h]; exact Nat.one_pos
    · rw [if_neg h]; exact N_pos

instance exRd_payload_storable (g : GSem nD τ sig) (r : ℕ) (d : Unit) :
    BI.Storable (upEmb : UEmb _ 𝕄) ((exRd (F := F) m ρ).payload g r d) := by
  show BI.Storable upEmb (if g.2 = .reg barS then barPay g.1.1
    else if g.2 = .dma snd0.sem then xLent0 m ρ g.1.1
    else if g.2 = .dma snd1.sem then xLent1 m ρ g.1.1
    else if g.2 = .dma rcv0.sem then rGot0 m ρ g.1.1
    else if g.2 = .dma rcv1.sem then rGot1 m ρ g.1.1
    else iprop(emp))
  unfold barPay
  (repeat' split) <;> infer_instance

section Sched
variable (c : Dev nD)

theorem s0_ne_bar : (SemLoc.dma snd0.sem : SemLoc sig) ≠ .reg barS := fun h => by cases h
theorem s1_ne_bar : (SemLoc.dma snd1.sem : SemLoc sig) ≠ .reg barS := fun h => by cases h
theorem v0_ne_bar : (SemLoc.dma rcv0.sem : SemLoc sig) ≠ .reg barS := fun h => by cases h
theorem v1_ne_bar : (SemLoc.dma rcv1.sem : SemLoc sig) ≠ .reg barS := fun h => by cases h
theorem s1_ne_s0 : (SemLoc.dma snd1.sem : SemLoc sig) ≠ .dma snd0.sem := by decide
theorem v0_ne_s0 : (SemLoc.dma rcv0.sem : SemLoc sig) ≠ .dma snd0.sem := by decide
theorem v0_ne_s1 : (SemLoc.dma rcv0.sem : SemLoc sig) ≠ .dma snd1.sem := by decide
theorem v1_ne_s0 : (SemLoc.dma rcv1.sem : SemLoc sig) ≠ .dma snd0.sem := by decide
theorem v1_ne_s1 : (SemLoc.dma rcv1.sem : SemLoc sig) ≠ .dma snd1.sem := by decide
theorem v1_ne_v0 : (SemLoc.dma rcv1.sem : SemLoc sig) ≠ .dma rcv0.sem := by decide

omit [FloatOps F] in
theorem duties_bar : (exRd (F := F) m ρ).duties (barCell c) 0 = {()} := by dsimp only [exRd]; exact if_pos ⟨rfl, rfl, .inl rfl⟩
omit [FloatOps F] in
theorem duties_s0 : (exRd (F := F) m ρ).duties (s0Cell c) 0 = {()} := by dsimp only [exRd]; exact if_pos ⟨rfl, rfl, .inr (.inl rfl)⟩
omit [FloatOps F] in
theorem duties_s1 : (exRd (F := F) m ρ).duties (s1Cell c) 0 = {()} := by dsimp only [exRd]; exact if_pos ⟨rfl, rfl, .inr (.inr (.inl rfl))⟩
omit [FloatOps F] in
theorem duties_v0 : (exRd (F := F) m ρ).duties (v0Cell c) 0 = {()} := by dsimp only [exRd]; exact if_pos ⟨rfl, rfl, .inr (.inr (.inr (.inl rfl)))⟩
omit [FloatOps F] in
theorem duties_v1 : (exRd (F := F) m ρ).duties (v1Cell c) 0 = {()} := by dsimp only [exRd]; exact if_pos ⟨rfl, rfl, .inr (.inr (.inr (.inr rfl)))⟩
omit [FloatOps F] in
theorem duties_later (g : GSem nD τ sig) : ∀ r, 1 ≤ r → (exRd (F := F) m ρ).duties g r = ∅ :=
  fun r hr => by dsimp only [exRd]; rw [if_neg fun h => by omega]

omit [FloatOps F] in
theorem amount_bar (d : Unit) : (exRd (F := F) m ρ).amount (barCell c) 0 d = 1 := by dsimp only [exRd]; exact if_pos rfl
omit [FloatOps F] in
theorem amount_s0 (d : Unit) : (exRd (F := F) m ρ).amount (s0Cell c) 0 d = N := by dsimp only [exRd]; exact if_neg s0_ne_bar
omit [FloatOps F] in
theorem amount_s1 (d : Unit) : (exRd (F := F) m ρ).amount (s1Cell c) 0 d = N := by dsimp only [exRd]; exact if_neg s1_ne_bar
omit [FloatOps F] in
theorem amount_v0 (d : Unit) : (exRd (F := F) m ρ).amount (v0Cell c) 0 d = N := by dsimp only [exRd]; exact if_neg v0_ne_bar
omit [FloatOps F] in
theorem amount_v1 (d : Unit) : (exRd (F := F) m ρ).amount (v1Cell c) 0 d = N := by dsimp only [exRd]; exact if_neg v1_ne_bar

omit [FloatOps F] in
theorem expect_bar : (exRd (F := F) m ρ).expect (barCell c) 0 = 1 := by
  unfold Schedule.expect Schedule.amountOf; rw [duties_bar, Finset.sum_singleton, amount_bar]
omit [FloatOps F] in
theorem expect_s0 : (exRd (F := F) m ρ).expect (s0Cell c) 0 = N := by
  unfold Schedule.expect Schedule.amountOf; rw [duties_s0, Finset.sum_singleton, amount_s0]
omit [FloatOps F] in
theorem expect_s1 : (exRd (F := F) m ρ).expect (s1Cell c) 0 = N := by
  unfold Schedule.expect Schedule.amountOf; rw [duties_s1, Finset.sum_singleton, amount_s1]
omit [FloatOps F] in
theorem expect_v0 : (exRd (F := F) m ρ).expect (v0Cell c) 0 = N := by
  unfold Schedule.expect Schedule.amountOf; rw [duties_v0, Finset.sum_singleton, amount_v0]
omit [FloatOps F] in
theorem expect_v1 : (exRd (F := F) m ρ).expect (v1Cell c) 0 = N := by
  unfold Schedule.expect Schedule.amountOf; rw [duties_v1, Finset.sum_singleton, amount_v1]

omit [FloatOps F] in
theorem payload_bar (d : Unit) : (exRd (F := F) m ρ).payload (barCell c) 0 d = barPay c := by dsimp only [exRd]; rw [if_pos rfl]
omit [FloatOps F] in
theorem payload_s0 (d : Unit) : (exRd (F := F) m ρ).payload (s0Cell c) 0 d = xLent0 m ρ c := by
  dsimp only [exRd]; rw [if_neg s0_ne_bar, if_pos rfl]
omit [FloatOps F] in
theorem payload_s1 (d : Unit) : (exRd (F := F) m ρ).payload (s1Cell c) 0 d = xLent1 m ρ c := by
  dsimp only [exRd]; rw [if_neg s1_ne_bar, if_neg s1_ne_s0, if_pos rfl]
omit [FloatOps F] in
theorem payload_v0 (d : Unit) : (exRd (F := F) m ρ).payload (v0Cell c) 0 d = rGot0 m ρ c := by
  dsimp only [exRd]; rw [if_neg v0_ne_bar, if_neg v0_ne_s0, if_neg v0_ne_s1, if_pos rfl]
omit [FloatOps F] in
theorem payload_v1 (d : Unit) : (exRd (F := F) m ρ).payload (v1Cell c) 0 d = rGot1 m ρ c := by
  dsimp only [exRd]; rw [if_neg v1_ne_bar, if_neg v1_ne_s0, if_neg v1_ne_s1, if_neg v1_ne_v0, if_pos rfl]

omit [FloatOps F] in
/-- The rest of a cell's round, nothing taken yet: its one payload. -/
theorem rest_bar : bigSep ((exRd (F := F) m ρ).duties (barCell c) 0 \ ∅) (fun d => (exRd (F := F) m ρ).payload (barCell c) 0 d) = barPay c := by
  rw [Finset.sdiff_empty, duties_bar, bigSep_singleton, payload_bar]
omit [FloatOps F] in
theorem rest_s0 : bigSep ((exRd (F := F) m ρ).duties (s0Cell c) 0 \ ∅) (fun d => (exRd (F := F) m ρ).payload (s0Cell c) 0 d) = xLent0 m ρ c := by
  rw [Finset.sdiff_empty, duties_s0, bigSep_singleton, payload_s0]
omit [FloatOps F] in
theorem rest_s1 : bigSep ((exRd (F := F) m ρ).duties (s1Cell c) 0 \ ∅) (fun d => (exRd (F := F) m ρ).payload (s1Cell c) 0 d) = xLent1 m ρ c := by
  rw [Finset.sdiff_empty, duties_s1, bigSep_singleton, payload_s1]
omit [FloatOps F] in
theorem rest_v0 : bigSep ((exRd (F := F) m ρ).duties (v0Cell c) 0 \ ∅) (fun d => (exRd (F := F) m ρ).payload (v0Cell c) 0 d) = rGot0 m ρ c := by
  rw [Finset.sdiff_empty, duties_v0, bigSep_singleton, payload_v0]
omit [FloatOps F] in
theorem rest_v1 : bigSep ((exRd (F := F) m ρ).duties (v1Cell c) 0 \ ∅) (fun d => (exRd (F := F) m ρ).payload (v1Cell c) 0 d) = rGot1 m ρ c := by
  rw [Finset.sdiff_empty, duties_v1, bigSep_singleton, payload_v1]

end Sched

/-! ## What each device owes at launch; the levels -/

/-- After its entry signal a device still owes the partner's two arrival cells a half's credit each; -/
def O₁ (c : Dev nD) : CellTallies nD τ sig Unit := tallyAt (v1Cell (peer c)) () N + tallyAt (v0Cell (peer c)) () N
/-- at launch also the partner's entry cell one unit (summed so that each action peels the last summand). -/
def O₀ (c : Dev nD) : CellTallies nD τ sig Unit := O₁ c + tallyAt (barCell (peer c)) () 1

def L (g : GSem nD τ sig) : Finset Unit := if g.1.2 = .tc then {()} else ∅
/-- entry cells at 1, arrival cells at 2, everything else (staging, departures) at 0. -/
def lv (g : GSem nD τ sig) (_ : Unit) : ℕ :=
  if g.2 = .reg barS then 1 else if g.2 = .dma rcv0.sem ∨ g.2 = .dma rcv1.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₁_pos {c : Dev nD} {g : GSem nD τ sig} {u : Unit} (h : 0 < O₁ c g u) :
    g = v1Cell (peer c) ∨ g = v0Cell (peer c) := by
  unfold O₁ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

theorem O₀_pos {c : Dev nD} {g : GSem nD τ sig} {u : Unit} (h : 0 < O₀ c g u) :
    g = v1Cell (peer c) ∨ g = v0Cell (peer c) ∨ g = barCell (peer c) := by
  unfold O₀ O₁ at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem lv_bar (c : Dev nD) (u : Unit) : lv (barCell c) u = 1 := by dsimp only [lv]; rw [if_pos rfl]
theorem lv_v0 (c : Dev nD) (u : Unit) : lv (v0Cell c) u = 2 := by dsimp only [lv]; rw [if_neg v0_ne_bar, if_pos (.inl rfl)]
theorem lv_v1 (c : Dev nD) (u : Unit) : lv (v1Cell c) u = 2 := by dsimp only [lv]; rw [if_neg v1_ne_bar, if_pos (.inr rfl)]

omit [FloatOps F] in
/-- A staging cell (level 0) may be waited on whatever the device owes of the exchange. -/
theorem mayWait_stage (c : Dev nD) (q : DmaSem sig) (hq0 : SemLoc.dma q ≠ .dma rcv0.sem) (hq1 : SemLoc.dma q ≠ .dma rcv1.sem)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl <;> exact Finset.mem_singleton_self _)
      (fun p hp => by
        rw [Finset.mem_singleton.mp hp]; dsimp only [lv]
        rw [if_neg (fun h => by cases h), if_neg (fun h => h.elim hq0 hq1)])
      (fun g u hg => by
        rcases O₀_pos hg with rfl | rfl | rfl
        · rw [lv_v1]; decide
        · rw [lv_v0]; decide
        · rw [lv_bar]; decide)
  · rw [MayWait_zero]; iintro -; iempintro

omit [FloatOps F] in
/-- At its entry wait a device owes the partner's arrival credits only: arrival cells, above its entry cell. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by rcases O₁_pos hg with rfl | rfl <;> exact Finset.mem_singleton_self _)
    (fun p hp => by rw [Finset.mem_singleton.mp hp]; exact le_of_eq (lv_bar c ()))
    (fun g u hg => by
      rcases O₁_pos hg with rfl | rfl
      · rw [lv_v1]; decide
      · rw [lv_v0]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result block on device `c`: rows 0–127 the sum of the two devices' rows 0–127, rows 128–255 likewise
    (the two stores' payloads laid over any contents: they cover the block). -/
def outAt (c : Dev nD) : (cc0_stg1_0 : Ref sig .tc).ty.Contents (Elt F) :=
  ((oM : Memref sig .tc .vmem S256x256 .f32).access r1 : View sig .tc _ _ _).write (Elt F)
    (((oM : Memref sig .tc .vmem S256x256 .f32).access r0 : View sig .tc _ _ _).write (Elt F) (xstg m ρ c)
      (k0_pay2 ((xM : Memref sig .tc .vmem S256x256 .f32).view.readAt (Elt F) r0.toLoadRect (xstg m ρ c))
        ((rM : Memref sig .tc .vmem S256x256 .f32).view.readAt (Elt F) r0.toLoadRect (landed m ρ c))) Finset.univ)
    (k0_pay1 ((xM : Memref sig .tc .vmem S256x256 .f32).view.readAt (Elt F) r1.toLoadRect (xstg m ρ c))
      ((rM : Memref sig .tc .vmem S256x256 .f32).view.readAt (Elt F) r1.toLoadRect (landed m ρ c))) Finset.univ

/-- The cells' invariants device `c`'s body opens, under the names `K` the launch allocated them at: its own five, the
    partner's entry cell (its signal) and the partner's two arrival cells (its copies). -/
def invs (K : Dev nD × Fin 5 → ℕ) (c : Dev nD) : sProp 𝕄 :=
  iprop(cellInv ER (exRd m ρ) (K (c, 0)) (barCell c) ∗ cellInv ER (exRd m ρ) (K (c, 1)) (s0Cell c) ∗ cellInv ER (exRd m ρ) (K (c, 2)) (s1Cell c)
    ∗ cellInv ER (exRd m ρ) (K (c, 3)) (v0Cell c) ∗ cellInv ER (exRd m ρ) (K (c, 4)) (v1Cell c)
    ∗ cellInv ER (exRd m ρ) (K (peer c, 0)) (barCell (peer c))
    ∗ cellInv ER (exRd m ρ) (K (peer c, 3)) (v0Cell (peer c)) ∗ cellInv ER (exRd m ρ) (K (peer c, 4)) (v1Cell (peer c)))

instance invs_persistent (K : Dev nD × Fin 5 → ℕ) (c : Dev nD) : BI.Persistent (invs m ρ K c) := by unfold invs; infer_instance

/-- The exchange's ghost state device `c` starts from: the invariants; its positions at round 0 of its five cells; round 0
    reached of the cells it pays and of its own departure and arrival cells; the five duty tokens it pays with — the
    partner's entry duty, the partner's two arrival duties, its own two departure duties. -/
def ghost (K : Dev nD × Fin 5 → ℕ) (c : Dev nD) : sProp 𝕄 :=
  iprop(invs m ρ K c
    ∗ atPos ER (barCell c) 0 ∅ 0 ∗ atPos ER (s0Cell c) 0 ∅ 0 ∗ atPos ER (s1Cell c) 0 ∅ 0 ∗ atPos ER (v0Cell c) 0 ∅ 0 ∗ atPos ER (v1Cell c) 0 ∅ 0
    ∗ reached ER (barCell (peer c)) 0 ∗ reached ER (v0Cell (peer c)) 0 ∗ reached ER (v1Cell (peer c)) 0
    ∗ reached ER (s0Cell c) 0 ∗ reached ER (s1Cell c) 0 ∗ reached ER (v0Cell c) 0 ∗ reached ER (v1Cell c) 0
    ∗ dutyTok ER (barCell (peer c)) 0 () ∗ dutyTok ER (v0Cell (peer c)) 0 () ∗ dutyTok ER (v1Cell (peer c)) 0 ()
    ∗ dutyTok ER (s0Cell c) 0 () ∗ dutyTok ER (s1Cell c) 0 ())

/-- What device `c`'s body starts from: that at some names, its three credit tokens (its entry cell's unit, its arrival
    cells' credits) and the level facts. -/
def start (c : Dev nD) : sProp 𝕄 :=
  iprop((∃ K, ghost m ρ K c) ∗ cred (tallyAt (barCell c) () 1) ∗ cred (tallyAt (v0Cell c) () N) ∗ cred (tallyAt (v1Cell c) () N) ∗ levAts L lv)

def Φ₀ (c : Dev nD) : sProp 𝕄 := iprop(start m ρ c ∗ ∃ f, scrPts c f)
/-- After the point: the landing buffer holding the partner's block, the four own cells at zero, closed. -/
def Φ₁ (c : Dev nD) : sProp 𝕄 :=
  iprop(scrPts c (landed m ρ c) ∗ semVal (s0Cell c) 0 ∗ semVal (s1Cell c) 0 ∗ semVal (v0Cell c) 0 ∗ semVal (v1Cell c) 0)

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body at the one point, and what the body hands back. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

end Cert.KernelIdealAR

end
-- ==== Proof.KernelIdealViews.lean ====
/-
  The staged block, the landing buffer and the result block cut into their two row halves: the pure facts about
  regions of a buffer (a points-to splits along disjoint element sets and along shares), about what a copy of one
  half lands, and about the two stores covering the result block.
-/
import proofs.«900703_g7700000000000704_dist_ar_v7x_xyz2x2x2_z_m256_n256_f32_1_alg».proof.Proof.KernelIdealProto
import Idealize.ShloMosaic.Lib.Pipeline.Value

noncomputable section

namespace Cert.KernelIdealAR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The two row halves as element sets -/

/-- Rows 0–127 and rows 128–255 are disjoint. -/
theorem rows_disj : Disjoint (r0.set) (r1.set) :=
  Rect.unit_disjoint (0 : Fin 2) (Or.inl (by decide))

/-- Every element is in rows 0–127 or in rows 128–255. -/
theorem rows_cover : r0.set ∪ r1.set = (Finset.univ : Finset S256x256.Idx) := by
  ext i
  simp only [Finset.mem_union, Finset.mem_univ, iff_true]
  have h0 : (i 0 : Nat) < 256 := (i 0).isLt
  have h1 : (i 1 : Nat) < 256 := (i 1).isLt
  by_cases h : (i 0 : Nat) < 128
  · left
    rw [Rect.mem_set_unit]
    refine Fin.forall_fin_two.mpr ⟨?_, ?_⟩
    · show (0 : Nat) ≤ (i 0 : Nat) ∧ (i 0 : Nat) < 0 + 128
      omega
    · show (0 : Nat) ≤ (i 1 : Nat) ∧ (i 1 : Nat) < 0 + 256
      omega
  · right
    rw [Rect.mem_set_unit]
    refine Fin.forall_fin_two.mpr ⟨?_, ?_⟩
    · show (128 : Nat) ≤ (i 0 : Nat) ∧ (i 0 : Nat) < 128 + 128
      omega
    · show (0 : Nat) ≤ (i 1 : Nat) ∧ (i 1 : Nat) < 0 + 256
      omega

omit [FloatOps F] in
/-- A whole-buffer points-to cut along two disjoint element sets that cover the buffer. -/
theorem pt_cut {ℓ : Loc nD τ sig} {A B : Finset (Idx ℓ)} (hd : Disjoint A B) (hc : A ∪ B = Finset.univ)
    (q : PosShare TreeShare) (f : Buf (Elt F) ℓ) :
    (ℓ ↦{q} f : sProp 𝕄) ⊣⊢ iprop((ℓ ↦[A]{q} f) ∗ ℓ ↦[B]{q} f) := by
  have h := pointsTo_union (nD := nD) (τ := τ) (sig := sig) (Ix := Unit) (Val := Elt F) (Name := ℕ) (U := UU) (Lvl := ℕ) (q := q) (f := f) hd
  rw [hc] at h
  exact h

/-- The elements under each half-slice are the rows of its rectangle. -/
theorem xset0 : (xS0 : Memref sig .tc .vmem S128x256 .f32).view.set = r0.set := View.set_slice_whole _ _
theorem xset1 : (xS1 : Memref sig .tc .vmem S128x256 .f32).view.set = r1.set := View.set_slice_whole _ _
theorem rset0 : (rS0 : Memref sig .tc .vmem S128x256 .f32).view.set = r0.set := View.set_slice_whole _ _
theorem rset1 : (rS1 : Memref sig .tc .vmem S128x256 .f32).view.set = r1.set := View.set_slice_whole _ _
theorem oset0 : ((oM : Memref sig .tc .vmem S256x256 .f32).access r0 : View sig .tc _ _ _).setOn Finset.univ = r0.set := View.set_slice_whole _ _
theorem oset1 : ((oM : Memref sig .tc .vmem S256x256 .f32).access r1 : View sig .tc _ _ _).setOn Finset.univ = r1.set := View.set_slice_whole _ _

theorem x_disj : Disjoint (xS0 : Memref sig .tc .vmem S128x256 .f32).view.set (xS1 : Memref sig .tc .vmem S128x256 .f32).view.set := by
  rw [xset0, xset1]; exact rows_disj
theorem x_cover : (xS0 : Memref sig .tc .vmem S128x256 .f32).view.set ∪ (xS1 : Memref sig .tc .vmem S128x256 .f32).view.set = Finset.univ := by
  rw [xset0, xset1]; exact rows_cover
theorem r_disj : Disjoint (rS0 : Memref sig .tc .vmem S128x256 .f32).view.set (rS1 : Memref sig .tc .vmem S128x256 .f32).view.set := by
  rw [rset0, rset1]; exact rows_disj
theorem r_cover : (rS0 : Memref sig .tc .vmem S128x256 .f32).view.set ∪ (rS1 : Memref sig .tc .vmem S128x256 .f32).view.set = Finset.univ := by
  rw [rset0, rset1]; exact rows_cover

/-- The half share of rows `k` of the staged block that stays with the device while a copy borrows the other half. -/
def xKept0 (c : Dev nD) : sProp 𝕄 :=
  (xS0 : Memref sig .tc .vmem S128x256 .f32).view.loc (c : Thread nD τ) ↦[(xS0 : Memref sig .tc .vmem S128x256 .f32).view.set]{fullShare.right} xstg m ρ c
def xKept1 (c : Dev nD) : sProp 𝕄 :=
  (xS1 : Memref sig .tc .vmem S128x256 .f32).view.loc (c : Thread nD τ) ↦[(xS1 : Memref sig .tc .vmem S128x256 .f32).view.set]{fullShare.right} xstg m ρ c

omit [FloatOps F] in
/-- The staged block, whole at the full share, is its two row halves, each as two half shares. -/
theorem x_split (c : Dev nD) :
    (((c : Thread nD τ).loc cc0_stg0_0) ↦{fullShare} xstg m ρ c : sProp 𝕄)
      ⊣⊢ iprop(xLent0 m ρ c ∗ xKept0 m ρ c ∗ xLent1 m ρ c ∗ xKept1 m ρ c) := by
  unfold xLent0 xKept0 xLent1 xKept1
  have hcut := pt_cut (F := F) (ℓ := (c : Thread nD τ).loc cc0_stg0_0) x_disj x_cover fullShare (xstg m ρ c)
  have hs0 := pointsTo_share (nD := nD) (τ := τ) (sig := sig) (Ix := Unit) (Val := Elt F) (Name := ℕ) (U := UU) (Lvl := ℕ)
    (ℓ := (c : Thread nD τ).loc cc0_stg0_0) (I := (xS0 : Memref sig .tc .vmem S128x256 .f32).view.set) (f := xstg m ρ c)
    (PosShare.mem_left_op_right fullShare)
  have hs1 := pointsTo_share (nD := nD) (τ := τ) (sig := sig) (Ix := Unit) (Val := Elt F) (Name := ℕ) (U := UU) (Lvl := ℕ)
    (ℓ := (c : Thread nD τ).loc cc0_stg0_0) (I := (xS1 : Memref sig .tc .vmem S128x256 .f32).view.set) (f := xstg m ρ c)
    (PosShare.mem_left_op_right fullShare)
  show _ ⊣⊢ iprop((((c : Thread nD τ).loc cc0_stg0_0) ↦[(xS0 : Memref sig .tc .vmem S128x256 .f32).view.set]{fullShare.left} xstg m ρ c)
    ∗ (((c : Thread nD τ).loc cc0_stg0_0) ↦[(xS0 : Memref sig .tc .vmem S128x256 .f32).view.set]{fullShare.right} xstg m ρ c)
    ∗ (((c : Thread nD τ).loc cc0_stg0_0) ↦[(xS1 : Memref sig .tc .vmem S128x256 .f32).view.set]{fullShare.left} xstg m ρ c)
    ∗ (((c : Thread nD τ).loc cc0_stg0_0) ↦[(xS1 : Memref sig .tc .vmem S128x256 .f32).view.set]{fullShare.right} xstg m ρ c))
  rw [BI.equiv_iff.mp ⟨hcut.1, hcut.2⟩, BI.equiv_iff.mp ⟨hs0.1, hs0.2⟩, BI.equiv_iff.mp ⟨hs1.1, hs1.2⟩]
  exact sep_assoc

omit [FloatOps F] in
/-- The landing buffer, whole at contents `f`, is its two row halves at `f`. -/
theorem scr_split (c : Dev nD) (f : Buf (Elt F) ((rM : Memref sig .tc .vmem S256x256 .f32).view.loc (c : Thread nD τ))) :
    scrPts c f ⊣⊢ iprop(((rS0 : Memref sig .tc .vmem S128x256 .f32).view.loc (c : Thread nD τ) ↦[(rS0 : Memref sig .tc .vmem S128x256 .f32).view.set]{fullShare} f)
      ∗ ((rS1 : Memref sig .tc .vmem S128x256 .f32).view.loc (c : Thread nD τ) ↦[(rS1 : Memref sig .tc .vmem S128x256 .f32).view.set]{fullShare} f)) := by
  rw [scrPts_eq]
  exact pt_cut (F := F) (ℓ := (c : Thread nD τ).loc cc0_scratch0) r_disj r_cover fullShare f

omit [FloatOps F] in
/-- Both halves landed: the landing buffer holds the partner's block. -/
theorem scr_join (c : Dev nD) : iprop(rGot0 m ρ c ∗ rGot1 m ρ c) ⊢ scrPts c (landed m ρ c) := by
  unfold rGot0 rGot1
  exact (scr_split c (landed m ρ c)).2

omit [FloatOps F] in
/-- What the copy of rows 0–127 of `c`'s staged block lands in the partner's landing buffer, whatever that held:
    on those rows, `c`'s block — the partner's arrival payload. -/
theorem land0 (c : Dev nD) (fd : Buf (Elt F) ((rS0 : Memref sig .tc .vmem S128x256 .f32).view.loc (peer c : Thread nD τ))) :
    ((rS0 : Memref sig .tc .vmem S128x256 .f32).view.loc (peer c : Thread nD τ) ↦[(rS0 : Memref sig .tc .vmem S128x256 .f32).view.set]{fullShare}
        ((rS0 : Memref sig .tc .vmem S128x256 .f32).view.write (Elt F) fd ((xS0 : Memref sig .tc .vmem S128x256 .f32).view.read (Elt F) (xstg m ρ c)) Finset.univ) : sProp 𝕄)
      ⊢ rGot0 m ρ (peer c) := by
  unfold rGot0 landed
  rw [peer_peer]
  refine Entails.of_eq (pointsTo_congr ?_)
  intro i hi
  obtain ⟨x, -, rfl⟩ := Finset.mem_map.mp hi
  rw [View.write_emb_of_mem _ _ (Finset.mem_univ x), View.read_apply, cast_cast, cast_eq]
  rfl

omit [FloatOps F] in
theorem land1 (c : Dev nD) (fd : Buf (Elt F) ((rS1 : Memref sig .tc .vmem S128x256 .f32).view.loc (peer c : Thread nD τ))) :
    ((rS1 : Memref sig .tc .vmem S128x256 .f32).view.loc (peer c : Thread nD τ) ↦[(rS1 : Memref sig .tc .vmem S128x256 .f32).view.set]{fullShare}
        ((rS1 : Memref sig .tc .vmem S128x256 .f32).view.write (Elt F) fd ((xS1 : Memref sig .tc .vmem S128x256 .f32).view.read (Elt F) (xstg m ρ c)) Finset.univ) : sProp 𝕄)
      ⊢ rGot1 m ρ (peer c) := by
  unfold rGot1 landed
  rw [peer_peer]
  refine Entails.of_eq (pointsTo_congr ?_)
  intro i hi
  obtain ⟨x, -, rfl⟩ := Finset.mem_map.mp hi
  rw [View.write_emb_of_mem _ _ (Finset.mem_univ x), View.read_apply, cast_cast, cast_eq]
  rfl

omit [FloatOps F] in
/-- A load of rows `k` through the whole memref touches only rows `k`. -/
theorem x_load0_sub : (xM : Memref sig .tc .vmem S256x256 .f32).view.setOn r0.toLoadRect.set ⊆ (xS0 : Memref sig .tc .vmem S128x256 .f32).view.set := by
  rw [xset0]
  show Finset.map (Function.Embedding.refl _) r0.set ⊆ r0.set
  rw [Finset.map_refl]
omit [FloatOps F] in
theorem x_load1_sub : (xM : Memref sig .tc .vmem S256x256 .f32).view.setOn r1.toLoadRect.set ⊆ (xS1 : Memref sig .tc .vmem S128x256 .f32).view.set := by
  rw [xset1]
  show Finset.map (Function.Embedding.refl _) r1.set ⊆ r1.set
  rw [Finset.map_refl]
omit [FloatOps F] in
theorem r_load0_sub : (rM : Memref sig .tc .vmem S256x256 .f32).view.setOn r0.toLoadRect.set ⊆ (rS0 : Memref sig .tc .vmem S128x256 .f32).view.set := by
  rw [rset0]
  show Finset.map (Function.Embedding.refl _) r0.set ⊆ r0.set
  rw [Finset.map_refl]
omit [FloatOps F] in
theorem r_load1_sub : (rM : Memref sig .tc .vmem S256x256 .f32).view.setOn r1.toLoadRect.set ⊆ (rS1 : Memref sig .tc .vmem S128x256 .f32).view.set := by
  rw [rset1]
  show Finset.map (Function.Embedding.refl _) r1.set ⊆ r1.set
  rw [Finset.map_refl]

omit [FloatOps F] in
/-- The two stores cover the result block: what they leave does not depend on what the block held. -/
theorem out_indep (g g' : (cc0_stg1_0 : Ref sig .tc).ty.Contents (Elt F)) (w0 w1 : S128x256.Idx → Elt F .f32) :
    ((oM : Memref sig .tc .vmem S256x256 .f32).access r1 : View sig .tc _ _ _).write (Elt F)
        (((oM : Memref sig .tc .vmem S256x256 .f32).access r0 : View sig .tc _ _ _).write (Elt F) g w0 Finset.univ) w1 Finset.univ
      = ((oM : Memref sig .tc .vmem S256x256 .f32).access r1 : View sig .tc _ _ _).write (Elt F)
        (((oM : Memref sig .tc .vmem S256x256 .f32).access r0 : View sig .tc _ _ _).write (Elt F) g' w0 Finset.univ) w1 Finset.univ := by
  funext i
  refine View.write_congr (fun _ _ _ => rfl) fun h1 => View.write_congr (fun _ _ _ => rfl) fun h0 => ?_
  exfalso
  rw [oset1] at h1
  rw [oset0] at h0
  have hc := Finset.mem_univ (i : S256x256.Idx)
  rw [← rows_cover] at hc
  rcases Finset.mem_union.mp hc with h | h
  · exact h0 h
  · exact h1 h

/-- info: 'Cert.KernelIdealAR.x_split' depends on axioms: [propext, Classical.choice, Quot.sound] -/
#guard_msgs in #print axioms x_split

/-- info: 'Cert.KernelIdealAR.land0' depends on axioms: [propext, Classical.choice, Quot.sound] -/
#guard_msgs in #print axioms land0

/-- info: 'Cert.KernelIdealAR.out_indep' depends on axioms: [propext, Classical.choice, Quot.sound] -/
#guard_msgs in #print axioms out_indep

end Cert.KernelIdealAR

end
-- ==== Proof.KernelIdealBody.lean ====
/-
  One device's body, stepped from the exchange's ghost state: the entry signal to the partner and the wait for the
  partner's; the two copies of the row halves into the partner's landing buffer, each lending a half share of its source
  rows; per half, the wait for the partner's rows, the sum of own and landed rows stored into the result block; the
  waits for the two departures, which return the lent shares; the four own cells closed.
-/
import proofs.«900703_g7700000000000704_dist_ar_v7x_xyz2x2x2_z_m256_n256_f32_1_alg».proof.Proof.KernelIdealViews

noncomputable section

namespace Cert.KernelIdealAR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 5 → ℕ)

/-- The copy of rows 0–127 to the partner, at the exchange's cells: it borrows the half share of the source rows (back at the
    departure) and rewrites the partner's rows (the partner's arrival payload); the partner is named by a variable equal
    to `peer c`, substituted. -/
theorem wp_send0 (c n : Dev nD) (hn : n = peer c)
    {hsc : (rS0 : Memref sig (Dev.tc n : Thread nD τ).2.kind .vmem S128x256 .f32).view.ref.isScScratch = false}
    {hsrc : (xS0 : Memref sig .tc .vmem S128x256 .f32).view.WordExact} {hdst : (rS0 : Memref sig .tc .vmem S128x256 .f32).view.WordExact}
    {hsem : DmaTarget.Typed .vmem (.dma rcv0.sem) (.remote (Dev.tc n : Thread nD τ) (rS0 : Memref sig .tc .vmem S128x256 .f32) (.dma snd0.sem) hsc)}
    {α : Type} {Q : α → sProp 𝕄} {k : PUnit → Prog (TpuEff nD τ sig (Elt F) Λ₀ .tc) α}
    (fn : Buf (Elt F) ((rS0 : Memref sig .tc .vmem S128x256 .f32).view.loc (peer c : Thread nD τ))) (O : CellTallies nD τ sig Unit) (W : Waits sig Unit) :
    iprop(cellInv ER (exRd m ρ) (K (c, 1)) (s0Cell c) ∗ cellInv ER (exRd m ρ) (K (peer c, 3)) (v0Cell (peer c))
        ∗ xLent0 m ρ c
        ∗ ((rS0 : Memref sig .tc .vmem S128x256 .f32).view.loc (peer c : Thread nD τ) ↦[(rS0 : Memref sig .tc .vmem S128x256 .f32).view.set]{fullShare} fn)
        ∗ owes (c : Thread nD τ) (O + tallyAt (v0Cell (peer c)) () N) W
        ∗ dutyTok ER (s0Cell c) 0 () ∗ reached ER (s0Cell c) 0
        ∗ dutyTok ER (v0Cell (peer c)) 0 () ∗ reached ER (v0Cell (peer c)) 0)
      ⊢ iprop(((cred (tallyAt (s0Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xS0 (.remote (Dev.tc n : Thread nD τ) rS0 (.dma snd0.sem) hsc) (.dma rcv0.sem) hsrc hdst hsem) k) Q) := by
  subst hn
  unfold xLent0
  exact Rounds.wp_send_pointsTo 𝒱₀ ER (exRd m ρ) (c : Thread nD τ) none (κ₁ := K (c, 1)) (κ₂ := K (peer c, 3))
    (r₁ := 0) (r₂ := 0) (d₁ := ()) (d₂ := ()) (fd := fn)
    (by rw [duties_s0]; exact Finset.mem_singleton_self _) (by rw [duties_v0]; exact Finset.mem_singleton_self _)
    () () N rfl (amount_s0 m ρ c ()) (amount_v0 m ρ (peer c) ()) O rfl (W := W)
    (by rw [payload_s0]; unfold xLent0; exact BI.Entails.refl _)
    (by rw [payload_v0]; exact land0 m ρ c fn)

/-- The copy of rows 128–255 to the partner, at the exchange's cells: it borrows the half share of the source rows (back at the
    departure) and rewrites the partner's rows (the partner's arrival payload); the partner is named by a variable equal
    to `peer c`, substituted. -/
theorem wp_send1 (c n : Dev nD) (hn : n = peer c)
    {hsc : (rS1 : Memref sig (Dev.tc n : Thread nD τ).2.kind .vmem S128x256 .f32).view.ref.isScScratch = false}
    {hsrc : (xS1 : Memref sig .tc .vmem S128x256 .f32).view.WordExact} {hdst : (rS1 : Memref sig .tc .vmem S128x256 .f32).view.WordExact}
    {hsem : DmaTarget.Typed .vmem (.dma rcv1.sem) (.remote (Dev.tc n : Thread nD τ) (rS1 : Memref sig .tc .vmem S128x256 .f32) (.dma snd1.sem) hsc)}
    {α : Type} {Q : α → sProp 𝕄} {k : PUnit → Prog (TpuEff nD τ sig (Elt F) Λ₀ .tc) α}
    (fn : Buf (Elt F) ((rS1 : Memref sig .tc .vmem S128x256 .f32).view.loc (peer c : Thread nD τ))) (O : CellTallies nD τ sig Unit) (W : Waits sig Unit) :
    iprop(cellInv ER (exRd m ρ) (K (c, 2)) (s1Cell c) ∗ cellInv ER (exRd m ρ) (K (peer c, 4)) (v1Cell (peer c))
        ∗ xLent1 m ρ c
        ∗ ((rS1 : Memref sig .tc .vmem S128x256 .f32).view.loc (peer c : Thread nD τ) ↦[(rS1 : Memref sig .tc .vmem S128x256 .f32).view.set]{fullShare} fn)
        ∗ owes (c : Thread nD τ) (O + tallyAt (v1Cell (peer c)) () N) W
        ∗ dutyTok ER (s1Cell c) 0 () ∗ reached ER (s1Cell c) 0
        ∗ dutyTok ER (v1Cell (peer c)) 0 () ∗ reached ER (v1Cell (peer c)) 0)
      ⊢ iprop(((cred (tallyAt (s1Cell c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xS1 (.remote (Dev.tc n : Thread nD τ) rS1 (.dma snd1.sem) hsc) (.dma rcv1.sem) hsrc hdst hsem) k) Q) := by
  subst hn
  unfold xLent1
  exact Rounds.wp_send_pointsTo 𝒱₀ ER (exRd m ρ) (c : Thread nD τ) none (κ₁ := K (c, 2)) (κ₂ := K (peer c, 4))
    (r₁ := 0) (r₂ := 0) (d₁ := ()) (d₂ := ()) (fd := fn)
    (by rw [duties_s1]; exact Finset.mem_singleton_self _) (by rw [duties_v1]; exact Finset.mem_singleton_self _)
    () () N rfl (amount_s1 m ρ c ()) (amount_v1 m ρ (peer c) ()) O rfl (W := W)
    (by rw [payload_s1]; unfold xLent1; exact BI.Entails.refl _)
    (by rw [payload_v1]; exact land1 m ρ c fn)

/-- What the body is stepped from: the start state opened at the names `K`, the landing buffer, what the device owes,
    and the two staging buffers as the pipeline hands them over. -/
def bodyPre (c : Dev nD) : sProp 𝕄 :=
  iprop((ghost m ρ K c ∗ cred (tallyAt (barCell c) () 1) ∗ cred (tallyAt (v0Cell c) () N) ∗ cred (tallyAt (v1Cell c) () N) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxHeartbeats 1600000 in
set_option maxRecDepth 8000 in
/-- The body, one rule per effect in program order, from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId]
  unfold bodyPre ghost invs
  iintro ⟨⟨⟨⟨⟨#HIbar, #HIs0, #HIs1, #HIv0, #HIv1, #HIbarP, #HIv0P, #HIv1P⟩, HatB, HatS0, HatS1, HatV0, HatV1, #HrBP, #HrV0P, #HrV1P, #HrS0, #HrS1, #HrV0, #HrV1,
      HtBP, HtV0P, HtV1P, HtS0, HtS1⟩, HcB, HcV0, HcV1, #Hlev, ⟨%f0, Hscr⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c]
  -- the entry signal to the partner: with it go this device's landing buffer and that its arrival cells are open
  iapply (Rounds.wp_signal 𝒱₀ ER (exRd m ρ) (c : Thread nD τ) none (dst := (peer c : Thread nD τ)) (κ := K (peer c, 0))
      (d := ()) (by rw [duties_bar]; exact Finset.mem_singleton_self _) ((amount_bar m ρ (peer c) ()).trans (by decide)) () (O₁ c) rfl)
    $$ [HO HtBP Hscr]
  · isplitr; · iexact HIbarP
    isplitl [HO]; · iexact HO
    isplitl [HtBP]; · iexact HtBP
    isplitl [Hscr]
    · rw [payload_bar]; unfold barPay; rw [peer_peer]
      isplitl [Hscr]; · iexists f0; iexact Hscr
      isplitr; · iexact HrV0
      iexact HrV1
    · iexact HrBP
  iintro HO
  -- the wait for the partner's entry signal, owing the partner's arrival credits: the partner's landing buffer comes with it
  iapply (Rounds.wp_wait_rest_token 𝒱₀ ER (exRd m ρ) (c : Thread nD τ) none (κ := K (c, 0))
      (wpE_semWait_eq 𝒱₀ (c : Thread nD τ) none Set.univ) (Set.mem_univ _) () (O := O₁ c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  icases Hp with ⟨⟨%fn, HscrN⟩, -, -⟩
  -- the partner's landing buffer by row halves; the staged block by row halves and half shares
  ihave Hs := (scr_split (peer c) fn).1 $$ HscrN
  icases Hs with ⟨HrP0, HrP1⟩
  ihave Hxs := (x_split m ρ c).1 $$ Hx
  icases Hxs with ⟨HxL0, HxK0, HxL1, HxK1⟩
  unfold O₁
  -- the copy of rows 0–127
  iapply (wp_send0 m ρ K c _ (dev2_eq c) fn (tallyAt (v1Cell (peer c)) () N) (insert (SemLoc.reg barS, ()) W)) $$ [HxL0 HrP0 HO HtS0 HtV0P]
  · isplitr; · iexact HIs0
    isplitr; · iexact HIv0P
    isplitl [HxL0]; · iexact HxL0
    isplitl [HrP0]; · iexact HrP0
    isplitl [HO]; · iexact HO
    isplitl [HtS0]; · iexact HtS0
    isplitr; · iexact HrS0
    isplitl [HtV0P]; · iexact HtV0P
    iexact HrV0P
  iintro ⟨HcS0, HO⟩
  -- the copy of rows 128–255
  iapply (wp_send1 m ρ K c _ (dev3_eq c) fn 0 (insert (SemLoc.reg barS, ()) W)) $$ [HxL1 HrP1 HO HtS1 HtV1P]
  · isplitr; · iexact HIs1
    isplitr; · iexact HIv1P
    isplitl [HxL1]; · iexact HxL1
    isplitl [HrP1]; · iexact HrP1
    isplitl [HO]; · rw [zero_add]; iexact HO
    isplitl [HtS1]; · iexact HtS1
    isplitr; · iexact HrS1
    isplitl [HtV1P]; · iexact HtV1P
    iexact HrV1P
  iintro ⟨HcS1, HO⟩
  -- the arrival of rows 0–127: the partner's rows in the landing buffer
  iapply (Rounds.wp_wait_rest_token 𝒱₀ ER (exRd m ρ) (c : Thread nD τ) none (κ := K (c, 3))
      (wpE_waitDma2_eq 𝒱₀ (c : Thread nD τ) none Set.univ) (Set.mem_univ _) () (O := 0) (W := insert (SemLoc.reg barS, ()) W) (R := 0) (m := 0) (T := ∅)
      (by rw [Nat.zero_add, expect_v0])) $$ [HcV0 HO HatV0]
  · isplitr; · iexact HIv0
    isplitl [HcV0]; · iexact HcV0
    isplitl [HO]; · iexact HO
    isplitr; · rw [MayWait_zero]; iempintro
    iexact HatV0
  iintro ⟨HO, HatV0, -, Hpay⟩
  ihave Hr0 := (Entails.of_eq (rest_v0 m ρ c)) $$ Hpay
  unfold rGot0 xKept0
  iapply (wp_load 𝒱₀ (c : Thread nD τ) none Set.univ (m := xM) x_load0_sub) $$ HxK0; iintro HxK0
  iapply (wp_load 𝒱₀ (c : Thread nD τ) none Set.univ (m := rM) r_load0_sub) $$ Hr0; iintro Hr0
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  -- the arrival of rows 128–255
  iapply (Rounds.wp_wait_rest_token 𝒱₀ ER (exRd m ρ) (c : Thread nD τ) none (κ := K (c, 4))
      (wpE_waitDma2_eq 𝒱₀ (c : Thread nD τ) none Set.univ) (Set.mem_univ _) () (O := 0) (W := insert (SemLoc.dma rcv0.sem, ()) (insert (SemLoc.reg barS, ()) W)) (R := 0) (m := 0) (T := ∅)
      (by rw [Nat.zero_add, expect_v1])) $$ [HcV1 HO HatV1]
  · isplitr; · iexact HIv1
    isplitl [HcV1]; · iexact HcV1
    isplitl [HO]; · iexact HO
    isplitr; · rw [MayWait_zero]; iempintro
    iexact HatV1
  iintro ⟨HO, HatV1, -, Hpay⟩
  ihave Hr1 := (Entails.of_eq (rest_v1 m ρ c)) $$ Hpay
  unfold rGot1 xKept1
  iapply (wp_load 𝒱₀ (c : Thread nD τ) none Set.univ (m := xM) x_load1_sub) $$ HxK1; iintro HxK1
  iapply (wp_load 𝒱₀ (c : Thread nD τ) none Set.univ (m := rM) r_load1_sub) $$ Hr1; iintro Hr1
  iapply (wp_load 𝒱₀ (c : Thread nD τ) none Set.univ (m := oM) (Finset.subset_univ _)) $$ Hout; iintro Hout
  iapply (wp_store 𝒱₀ (c : Thread nD τ) none Set.univ (m := oM) (r := r1) (Mk := Finset.univ) (Finset.subset_univ _)) $$ Hout; iintro Hout
  -- the two departures: the lent half shares come back
  iapply (Rounds.wp_wait_rest_token 𝒱₀ ER (exRd m ρ) (c : Thread nD τ) none (κ := K (c, 1))
      (wpE_waitDma2_eq 𝒱₀ (c : Thread nD τ) none Set.univ) (Set.mem_univ _) () (O := 0) (W := insert (SemLoc.dma rcv1.sem, ()) (insert (SemLoc.dma rcv0.sem, ()) (insert (SemLoc.reg barS, ()) W))) (R := 0) (m := 0) (T := ∅)
      (by rw [Nat.zero_add, expect_s0])) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave HxL0 := (Entails.of_eq (rest_s0 m ρ c)) $$ Hpay
  iapply (Rounds.wp_wait_rest_token 𝒱₀ ER (exRd m ρ) (c : Thread nD τ) none (κ := K (c, 2))
      (wpE_waitDma2_eq 𝒱₀ (c : Thread nD τ) none Set.univ) (Set.mem_univ _) () (O := 0) (W := insert (SemLoc.dma snd0.sem, ()) (insert (SemLoc.dma rcv1.sem, ()) (insert (SemLoc.dma rcv0.sem, ()) (insert (SemLoc.reg barS, ()) W)))) (R := 0) (m := 0) (T := ∅)
      (by rw [Nat.zero_add, expect_s1])) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave HxL1 := (Entails.of_eq (rest_s1 m ρ c)) $$ Hpay
  -- the four own cells close: their counters at zero are the core's again
  imod (Rounds.cell_close ER (exRd m ρ) (Set.mem_univ (K (c, 1))) (fun h => h) (R := 0 + 1) (duties_later m ρ (s0Cell c))) $$ [HatS0] with HzS0
  · isplitr; · iexact HIs0
    iexact HatS0
  imod (Rounds.cell_close ER (exRd m ρ) (Set.mem_univ (K (c, 2))) (fun h => h) (R := 0 + 1) (duties_later m ρ (s1Cell c))) $$ [HatS1] with HzS1
  · isplitr; · iexact HIs1
    iexact HatS1
  imod (Rounds.cell_close ER (exRd m ρ) (Set.mem_univ (K (c, 3))) (fun h => h) (R := 0 + 1) (duties_later m ρ (v0Cell c))) $$ [HatV0] with HzV0
  · isplitr; · iexact HIv0
    iexact HatV0
  imod (Rounds.cell_close ER (exRd m ρ) (Set.mem_univ (K (c, 4))) (fun h => h) (R := 0 + 1) (duties_later m ρ (v1Cell c))) $$ [HatV1] with HzV1
  · isplitr; · iexact HIv1
    iexact HatV1
  rw [wp_ret]; imodintro
  iapply Hk
  unfold bodyPost Φ₁ Dat.owesAt Pipeline.owesWithin
  rw [show (dats m ρ 0 c).owed t₀.succ = 0 from rfl]
  isplitl [Hr0 Hr1 HzS0 HzS1 HzV0 HzV1]
  · isplitl [Hr0 Hr1]
    · iapply (scr_join m ρ c)
      unfold rGot0 rGot1
      isplitl [Hr0]; · iexact Hr0
      iexact Hr1
    isplitl [HzS0]; · iexact HzS0
    isplitl [HzS1]; · iexact HzS1
    isplitl [HzV0]; · iexact HzV0
    iexact HzV1
  isplitl [HO]
  · iexists (insert (SemLoc.dma snd1.sem, ()) (insert (SemLoc.dma snd0.sem, ()) (insert (SemLoc.dma rcv1.sem, ()) (insert (SemLoc.dma rcv0.sem, ()) (insert (SemLoc.reg barS, ()) W)))))
    isplitr; · ipureintro; exact fun _ _ => Or.inl trivial
    iexact HO
  isplitl [HxL0 HxK0 HxL1 HxK1]
  · iexists _; isplitr; · (ipureintro; rfl)
    iapply (x_split m ρ c).2
    unfold xKept0 xKept1
    isplitl [HxL0]; · iexact HxL0
    isplitl [HxK0]; · iexact HxK0
    isplitl [HxL1]; · iexact HxL1
    iexact HxK1
  rw [out_indep g1 (xstg m ρ c)]
  iexists (outAt m ρ c); isplitr
  · ipureintro; rfl
  unfold outAt; iexact Hout

end Body

set_option maxRecDepth 4000 in
/-- The pipeline's body obligation on device `c`: the one point's precondition opened at the start state's names. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hrest⟩, Hscr⟩, Ho, Hx, Hout⟩
  iapply (sound_body m ρ K c fun _ => bodyPost m ρ c)
  unfold bodyPre
  isplitr []
  · isplitl [Hg Hrest Hscr]
    · isplitl [Hg]; · iexact Hg
      icases Hrest with ⟨H1, H2, H3, H4⟩
      isplitl [H1]; · iexact H1
      isplitl [H2]; · iexact H2
      isplitl [H3]; · iexact H3
      isplitl [H4]; · iexact H4
      iexact Hscr
    isplitl [Ho]; · iexact Ho
    isplitl [Hx] <;> iassumption
  · iintro H; iexact H

/-- info: 'Cert.KernelIdealAR.body_obligation' depends on axioms: [propext, Classical.choice, Quot.sound] -/
#guard_msgs in #print axioms body_obligation

end Cert.KernelIdealAR

end
-- ==== Proof.KernelIdealLaunch.lean ====
/-
  The launch of the exchange on the eight devices. Every device's five cells (its entry cell, its two departure
  cells, its two arrival cells) get their invariants under one update, because a device's entry cell and arrival
  cells are paid by its partner: the partner must hold those cells' invariants, round marks and duty tokens from
  the start. The duty tokens minted for a device's own cells are therefore dealt across each pair — the entry
  token and the two arrival tokens to the partner, the two departure tokens kept —, and the credit for what the
  partner owes (one unit on the entry cell, a half's credit on each arrival cell) comes back the same way, the
  partner map being its own inverse. The result array after the run is what the one point wrote back over it.
-/
import proofs.«900703_g7700000000000704_dist_ar_v7x_xyz2x2x2_z_m256_n256_f32_1_alg».proof.Proof.KernelIdealProto

noncomputable section

namespace Cert.KernelIdealAR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens minted at launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 5 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl

/-- The forty cells of the exchange. -/
def exCells : Finset (GSem nD τ sig) := Finset.univ.map ⟨kcell, kcell_injective⟩

/-- Each cell has one duty, at round 0: its token as minted. -/
abbrev tokOf (ck : Dev nD × Fin 5) : GSem nD τ sig × ℕ × Unit := (kcell ck, 0, ())
theorem tokOf_injective : Function.Injective (tokOf : Dev nD × Fin 5 → GSem nD τ sig × ℕ × Unit) :=
  fun a b h => kcell_injective (congrArg Prod.fst h)
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The duty tokens of device `c`'s own five cells. -/
def toks (c : Dev nD) : sProp 𝕄 :=
  iprop(dutyTok ER (barCell c) 0 () ∗ dutyTok ER (s0Cell c) 0 () ∗ dutyTok ER (s1Cell c) 0 ()
    ∗ dutyTok ER (v0Cell c) 0 () ∗ dutyTok ER (v1Cell c) 0 ())

/-- What the launch element deals device `c`: its five cells' round states, positions and round marks, and their tokens. -/
def G (c : Dev nD) : sProp 𝕄 :=
  iprop((bigSep Finset.univ fun k : Fin 5 => roundState ER (exRd m ρ) (kcell (c, k)) 0)
    ∗ (bigSep Finset.univ fun k : Fin 5 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

omit [FloatOps F] in
theorem fund : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 5 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin5]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The departure and arrival semaphores are the kernel's own four; -/
theorem ownSems0_eq (c : Dev nD) : (Pipeline.ownSems0 (Ix := Unit) (Name := ℕ) (U := UU) (Lvl := ℕ) (Val := Elt F) (τ := τ) osem c : sProp 𝕄)
    = iprop(semVal (s0Cell c) 0 ∗ semVal (s1Cell c) 0 ∗ semVal (v0Cell c) 0 ∗ semVal (v1Cell c) 0) := by
  rw [Pipeline.ownSems0_eq_of_list c osem [0, 1, 2, 3] (by decide) (by decide)]; rfl
omit [FloatOps F] in
/-- the entry semaphore is the one semaphore not scoped to the launch. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨HS0, HS1, HV0, HV1⟩, HB⟩
  isplitl [HB]; · iexact HB
  isplitl [HS0]; · iexact HS0
  isplitl [HS1]; · iexact HS1
  isplitl [HV0] <;> iassumption

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 5 => semVal (kcell (c, k)) 0) ∗ bigSep Finset.univ fun k : Fin 5 => roundState ER (exRd m ρ) (kcell (c, k)) 0)
      ⊢ (|={Set.univ}=> bigSep Finset.univ fun k => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- All cells' invariants, under names `K`, and all cells' round-0 marks: what every device may read. -/
def records (K : Dev nD × Fin 5 → ℕ) : sProp 𝕄 :=
  iprop((bigSep Finset.univ fun ck : Dev nD × Fin 5 => cellInv ER (exRd m ρ) (K ck) (kcell ck))
    ∗ bigSep Finset.univ fun ck : Dev nD × Fin 5 => reached ER (kcell ck) 0)

instance records_persistent (K : Dev nD × Fin 5 → ℕ) : BI.Persistent (records m ρ K) := by unfold records; infer_instance

omit [FloatOps F] in
theorem inv_at (K : Dev nD × Fin 5 → ℕ) (ck : Dev nD × Fin 5) :
    (bigSep Finset.univ fun ck : Dev nD × Fin 5 => (cellInv ER (exRd m ρ) (K ck) (kcell ck) : sProp 𝕄)) ⊢ cellInv ER (exRd m ρ) (K ck) (kcell ck) :=
  bigSep_elim (Finset.mem_univ ck)
omit [FloatOps F] in
theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

/-- The tokens of the duties device `c` pays: its partner's entry duty and two arrival duties, its own two departure duties. -/
def payToks (c : Dev nD) : sProp 𝕄 :=
  iprop(dutyTok ER (barCell (peer c)) 0 () ∗ dutyTok ER (v0Cell (peer c)) 0 () ∗ dutyTok ER (v1Cell (peer c)) 0 ()
    ∗ dutyTok ER (s0Cell c) 0 () ∗ dutyTok ER (s1Cell c) 0 ())
/-- What stays with device `c` alone: its positions on its five cells, and those tokens. -/
def linear (c : Dev nD) : sProp 𝕄 :=
  iprop((atPos ER (barCell c) 0 ∅ 0 ∗ atPos ER (s0Cell c) 0 ∅ 0 ∗ atPos ER (s1Cell c) 0 ∅ 0 ∗ atPos ER (v0Cell c) 0 ∅ 0 ∗ atPos ER (v1Cell c) 0 ∅ 0)
    ∗ payToks c)

omit [FloatOps F] in
theorem ghost_intro (K : Dev nD × Fin 5 → ℕ) (c : Dev nD) : iprop(records m ρ K ∗ linear c) ⊢ G' m ρ c := by
  unfold records linear payToks G' ghost invs
  iintro ⟨⟨#HI, #HR⟩, ⟨HaB, HaS0, HaS1, HaV0, HaV1⟩, HtB, HtV0, HtV1, HtS0, HtS1⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (peer c, 0)); iexact HI
    isplitr; · iapply (inv_at m ρ K (peer c, 3)); iexact HI
    iapply (inv_at m ρ K (peer c, 4)); iexact HI
  isplitl [HaB]; · iexact HaB
  isplitl [HaS0]; · iexact HaS0
  isplitl [HaS1]; · iexact HaS1
  isplitl [HaV0]; · iexact HaV0
  isplitl [HaV1]; · iexact HaV1
  isplitr; · iapply (reached_at (F := F) (peer c, 0)); iexact HR
  isplitr; · iapply (reached_at (F := F) (peer c, 3)); iexact HR
  isplitr; · iapply (reached_at (F := F) (peer c, 4)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitl [HtB]; · iexact HtB
  isplitl [HtV0]; · iexact HtV0
  isplitl [HtV1]; · iexact HtV1
  isplitl [HtS0]; · iexact HtS0
  iexact HtS1

omit [FloatOps F] in
/-- The tokens dealt across each pair: a device's entry token and its two arrival tokens go to its partner (who, the
    partner map being an involution, sends its own back); the departure tokens stay. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pairing (fun c : Dev nD => (dutyTok ER (barCell c) 0 () : sProp 𝕄)),
    bigSep_univ_equiv pairing (fun c : Dev nD => (dutyTok ER (v0Cell c) 0 () : sProp 𝕄)),
    bigSep_univ_equiv pairing (fun c : Dev nD => (dutyTok ER (v1Cell c) 0 () : sProp 𝕄))]
  iintro ⟨HB, HS0, HS1, HV0, HV1⟩
  isplitl [HB]; · iexact HB
  isplitl [HV0]; · iexact HV0
  isplitl [HV1]; · iexact HV1
  isplitl [HS0]; · iexact HS0
  iexact HS1

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 5 => iprop(∃ κ : ℕ, cellInv ER (exRd m ρ) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (exRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 5 => (atPos ER (kcell (c, k)) 0 ∅ 0 : sProp 𝕄)) payToks).symm).trans
      (bigSep_mono fun c _ => show _ ⊢ linear c from Entails.of_eq (by unfold linear; rw [bigSep_fin5])))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- What the devices owe device `c`'s cells comes from its partner alone — a unit on the entry cell, a half's credit on
    each arrival cell —, so that is the credit the launch deals `c`. -/
theorem creds (c : Dev nD) :
    (Pipeline.launchCred O₀ c : sProp 𝕄)
      ⊢ iprop(cred (tallyAt (barCell c) () 1) ∗ cred (tallyAt (v0Cell c) () N) ∗ cred (tallyAt (v1Cell c) () N)) := by
  have e0 : (Pipeline.launchCred O₀ c : sProp 𝕄)
      = iprop(Pipeline.launchCred O₁ c ∗ Pipeline.launchCred (fun d => tallyAt (barCell (peer d)) () 1) c) :=
    Pipeline.launchCred_add O₁ (fun d => tallyAt (barCell (peer d)) () 1) c
  have e1 : (Pipeline.launchCred O₁ c : sProp 𝕄)
      = iprop(Pipeline.launchCred (fun d => tallyAt (v1Cell (peer d)) () N) c ∗ Pipeline.launchCred (fun d => tallyAt (v0Cell (peer d)) () N) c) :=
    Pipeline.launchCred_add (fun d => tallyAt (v1Cell (peer d)) () N) (fun d => tallyAt (v0Cell (peer d)) () N) c
  rw [e0, e1]
  iintro ⟨⟨H1, H0⟩, HB⟩
  isplitl [HB]
  · iapply (Pipeline.launchCred_tallyAt (.reg barS) peer peer peer_peer peer_peer () 1 c); iexact HB
  isplitl [H0]
  · iapply (Pipeline.launchCred_tallyAt (.dma rcv0.sem) peer peer peer_peer peer_peer () N c); iexact H0
  · iapply (Pipeline.launchCred_tallyAt (.dma rcv1.sem) peer peer peer_peer peer_peer () N c); iexact H1

/-! ## Into the pipeline's invariant and out of it -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HB, H0, H1⟩
  imodintro
  unfold start G'
  isplitl
  · isplitl [HG]; · iexact HG
    isplitl [HB]; · iexact HB
    isplitl [H0]; · iexact H0
    isplitl [H1]; · iexact H1
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, HS0, HS1, HV0, HV1⟩
  isplitr; · iempintro
  isplitl [HS0 HS1 HV0 HV1]
  · isplitl [HS0]; · iexact HS0
    isplitl [HS1]; · iexact HS1
    isplitl [HV0] <;> iassumption
  iexists (landed m ρ c); rw [← scrPts_eq]; iexact Hr

/-- The pipeline's own waits are on the staging cells, none of them an arrival cell. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) (by fin_cases w <;> fin_cases s <;> decide) _ (by
      rcases t with ⟨_ | _, ht⟩
      · exact Or.inl rfl
      · exact Or.inr rfl)

/-! ## The run -/

/-- The arrays of the two windows after the run's one write-back. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the eight devices, for any float values, from any memory with zero counters: if each device's body meets its
    obligation, every weakly fair execution terminates, and every final state has each device's two arrays at `finalA`. -/
theorem run_main_of (hbody : ∀ c : Dev nD, BodyObligation (dats (F := F) m ρ 0 c) (defs₀ (F := F)) 𝒱₀ () Set.univ) :
    θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (st0 m ρ).mem (win0_0.arr.view.loc (c : Thread nD τ)) :=
  (dats (F := F) m ρ 0 c).arrAt_in (0 : Fin 2) rfl _

/-- The result array after the run is the block the one point wrote back: the window's block is the whole array, at
    block index 0, and the write-back is unmasked, so nothing of the earlier contents is left. -/
theorem finalA_out (c : Dev nD) : finalA m ρ c (1 : Fin 2) = outAt m ρ c := by
  unfold finalA
  have h := (dats (F := F) m ρ 0 c).arrAt_succ (1 : Fin 2) t₀
  rw [flush0_1 t₀, if_pos rfl] at h
  refine Eq.trans (show (dats m ρ 0 c).arrAt (1 : Fin 2) cfg0.N = (dats m ρ 0 c).arrAt (1 : Fin 2) (t₀.val + 1) from rfl) ?_
  rw [h]
  refine (Memref.write_access_unit_zero_univ (Elt F) main_v1 (off := fun a => win0_1.index t₀ a * win0_1.size a)
    (funext fun a => Nat.zero_mul _) _ ((dats m ρ 0 c).arrAt (1 : Fin 2) t₀.val) ((dats m ρ 0 c).flushed (1 : Fin 2) t₀)).trans ?_
  rfl

/-- info: 'Cert.KernelIdealAR.run_main_of' depends on axioms: [propext, Classical.choice, Quot.sound] -/
#guard_msgs in #print axioms run_main_of
/-- info: 'Cert.KernelIdealAR.finalA_x' depends on axioms: [propext, Classical.choice, Quot.sound] -/
#guard_msgs in #print axioms finalA_x
/-- info: 'Cert.KernelIdealAR.finalA_out' depends on axioms: [propext, Classical.choice, Quot.sound] -/
#guard_msgs in #print axioms finalA_out

end Cert.KernelIdealAR

end
-- ==== Proof.AlgValue.lean ====
/-
  The values of the exchange: what a device stages, and what its result block holds.

  A device's staged block is its whole 256×256 argument array: the one block of the window is the array itself.
  The result block is written by two stores through the row halves of a 256×256 buffer: rows 0–127 take the sum of
  rows 0–127 of the device's own block and of what landed (the partner's block), rows 128–255 likewise. The two
  halves cover the block, so over the extended reals every entry of the result block is the device's own entry
  plus the partner's entry.
-/
import proofs.«900703_g7700000000000704_dist_ar_v7x_xyz2x2x2_z_m256_n256_f32_1_alg».proof.Proof.KernelIdealProto
import Idealize.ShloMosaic.Lib.Pipeline.Value
import Idealize.ShloMosaic.Lib.ValueIdx

noncomputable section

namespace Cert.KernelIdealAR

open Cert.KernelIdeal Cert.KernelIdeal.Gen

open Idealize.ShloMosaic
open Idealize.ShloMosaic.TcCoe
open Idealize.SL Idealize.SL.Sem

section
variable {F : FTy → Type} [FloatOps F] (m : (ℓ : Loc nD τ sig) → Buf (Elt F) ℓ) (ρ : Dev nD → PrngReg)

/-- The staged block is the device's whole argument array (the window's one block is the array): the block is the
    rectangle at zero offsets with the array's own sizes, and reading through it reads the array. -/
theorem xstg_eq (c : Dev nD) : xstg m ρ c = m ((c : Thread nD τ).loc main_arg0) := by
  unfold xstg
  exact Memref.read_access_unit_zero (Elt F) main_arg0 (by funext a; fin_cases a <;> rfl) _ _
end

section Reads
variable {κ : Kind} {Val : EltTy → Type}

/-- A load through a whole buffer at a unit-stride rectangle reads, at an index of the rectangle, the buffer's entry
    at the offsets plus the index. -/
theorem readAt_unit_entry (b : Ref sig κ) (off size : Fin b.ty.shape.rank → Nat) (inb : ∀ a, off a + size a ≤ b.ty.shape.size a)
    (f : b.ty.Contents Val) (j : (Rect.unit off size inb).shape.Idx) (i : b.ty.shape.Idx)
    (h : ∀ a, (i a : Nat) = off a + (j a : Nat)) :
    (Memref.whole b : Memref sig κ _ _ _).view.readAt Val (Rect.unit off size inb).toLoadRect f j = f i := by
  rw [View.readAt_apply]
  show f ((Rect.unit off size inb).toLoadRect.idx j) = f i
  congr 1
  funext a
  apply Fin.ext
  rw [LoadRect.idx_apply, h a]
  show off a + 1 * (j a : Nat) = off a + (j a : Nat)
  rw [Nat.one_mul]
end Reads

section
variable (m : (ℓ : Loc nD τ sig) → Buf (Elt Ideal) ℓ) (ρ : Dev nD → PrngReg)

/-- Every entry of the result block is the device's own entry plus the partner's: entry (r, k) with r ≥ 128 is the
    second store's payload at (r − 128, k), with r < 128 the first store's at (r, k); each payload entry is the sum of
    the two blocks' entries at (r, k), the loads reading the same rows the store writes. -/
theorem outAt_apply (c : Dev nD) (i : S256x256.Idx) :
    (show EReal from outAt (F := Ideal) m ρ c i) = (show EReal from xstg m ρ c i) + (show EReal from xstg m ρ (peer c) i) := by
  unfold outAt
  rw [View.write_whole_slice_unit, View.write_whole_slice_unit]
  unfold landed
  unfold updateSlice
  split
  · next h1 =>
    -- rows 128–255: the second store's payload at the row minus 128
    unfold k0_pay1
    rw [ValueIdx.addf_apply, shapeCast_self]
    rw [readAt_unit_entry cc0_stg0_0 ![128, 0] S128x256.size inb_S256x256_S128x256_128_0 (xstg m ρ c) _ i
        (fun a => by have := (h1 a).1; show (i a : Nat) = ![128, 0] a + ((i a : Nat) - ![128, 0] a); omega),
      readAt_unit_entry cc0_scratch0 ![128, 0] S128x256.size inb_S256x256_S128x256_128_0 (xstg m ρ (peer c)) _ i
        (fun a => by have := (h1 a).1; show (i a : Nat) = ![128, 0] a + ((i a : Nat) - ![128, 0] a); omega)]
  · next h1 =>
    split
    · next h0 =>
      -- rows 0–127: the first store's payload at the same row
      unfold k0_pay2
      rw [ValueIdx.addf_apply, shapeCast_self]
      rw [readAt_unit_entry cc0_stg0_0 ![0, 0] S128x256.size inb_S256x256_S128x256_0_0 (xstg m ρ c) _ i
          (fun a => by have := (h0 a).1; show (i a : Nat) = ![0, 0] a + ((i a : Nat) - ![0, 0] a); omega),
        readAt_unit_entry cc0_scratch0 ![0, 0] S128x256.size inb_S256x256_S128x256_0_0 (xstg m ρ (peer c)) _ i
          (fun a => by have := (h0 a).1; show (i a : Nat) = ![0, 0] a + ((i a : Nat) - ![0, 0] a); omega)]
    · next h0 =>
      -- no other entry: a row is below 128 or from 128 on (and below 256), a column below 256
      exfalso
      have hi0 : (i 0 : Nat) < 256 := (i 0).isLt
      have hi1 : (i 1 : Nat) < 256 := (i 1).isLt
      by_cases hh : 128 ≤ (i 0 : Nat)
      · refine h1 (Fin.forall_fin_two.mpr ⟨⟨hh, ?_⟩, ⟨Nat.zero_le _, ?_⟩⟩)
        · show (i 0 : Nat) < 128 + 128; omega
        · show (i 1 : Nat) < 0 + 256; omega
      · refine h0 (Fin.forall_fin_two.mpr ⟨⟨Nat.zero_le _, ?_⟩, ⟨Nat.zero_le _, ?_⟩⟩)
        · show (i 0 : Nat) < 0 + 128; omega
        · show (i 1 : Nat) < 0 + 256; omega
end

/-- info: 'Cert.KernelIdealAR.xstg_eq' depends on axioms: [propext, Classical.choice, Quot.sound] -/
#guard_msgs in #print axioms xstg_eq
/-- info: 'Cert.KernelIdealAR.outAt_apply' depends on axioms: [propext, Classical.choice, Quot.sound] -/
#guard_msgs in #print axioms outAt_apply

end Cert.KernelIdealAR

end
-- ==== Proof.RefValue.lean ====
import proofs.«900703_g7700000000000704_dist_ar_v7x_xyz2x2x2_z_m256_n256_f32_1_alg».proof.Defs
import proofs.«900703_g7700000000000704_dist_ar_v7x_xyz2x2x2_z_m256_n256_f32_1_alg».proof.Proof.Gen.ReferenceIdeal
import proofs.«900703_g7700000000000704_dist_ar_v7x_xyz2x2x2_z_m256_n256_f32_1_alg».proof.Proof.Gen.Pre_finite_inputs_ReferenceIdeal
import proofs.«900703_g7700000000000704_dist_ar_v7x_xyz2x2x2_z_m256_n256_f32_1_alg».proof.Proof.Gen.ReferenceIdeal.Run
import proofs.«900703_g7700000000000704_dist_ar_v7x_xyz2x2x2_z_m256_n256_f32_1_alg».proof.Proof.Gen.ReferenceIdeal.Read
import Idealize.ShloMosaic.Lib.ValueIdx
import Idealize.ShloMosaic.Lib.Layout
import Idealize.ShloMosaic.PureOps.Ideal.Laws

/-!
  The one-device program folds the 512 × 256 array into two stacked 256 × 256 halves and adds
  them: entry (a, b) of its result is X(a, b) + X(a + 256, b). On the 2 × 2 × 2 mesh, device
  `c` holds the half numbered by its last mesh coordinate, `c % 2`, and its partner — the device
  whose last coordinate is the other one — holds the other half; so "own half + partner's half"
  is the same sum on every device, in the same order on the even devices and in the opposite
  order (commutativity of + on the extended reals) on the odd ones.
-/

noncomputable section

namespace Cert.RefValue

open Idealize.ShloMosaic Idealize.SL.Sem
open Idealize.ShloMosaic.ValueIdx

/-- The whole array: the one-device program's argument, 512 rows of 256. -/
abbrev Whole : Type :=
  Buf (Elt Ideal) (((0 : Dev Cert.ReferenceIdeal.nD).tc : Thread Cert.ReferenceIdeal.nD Cert.ReferenceIdeal.τ).loc Cert.ReferenceIdeal.main_arg0)
/-- Its result: 256 rows of 256. -/
abbrev Half : Type :=
  Buf (Elt Ideal) (((0 : Dev Cert.ReferenceIdeal.nD).tc : Thread Cert.ReferenceIdeal.nD Cert.ReferenceIdeal.τ).loc Cert.ReferenceIdeal.main_v1)

/-- Row `a` of the upper half, as a row of the whole array. -/
abbrev lo (a : Fin 256) : Fin 512 := ⟨a.val, by omega⟩
/-- Row `a` of the lower half, as a row of the whole array. -/
abbrev hi (a : Fin 256) : Fin 512 := ⟨a.val + 256, by omega⟩

/-- The sum of the two 256-row halves of a 512-row array, entry by entry: X(a, b) + X(a + 256, b). -/
def halvesFn (X : (⟨2, ![512, 256]⟩ : Shape).Idx → EReal) : (⟨2, ![256, 256]⟩ : Shape).Idx → EReal :=
  fun i => X (ix2 (lo (i 0)) (i 1)) + X (ix2 (hi (i 0)) (i 1))

/-- the sum of the two 256-row halves of the whole array -/
def halves (X : Buf (Elt Ideal) (((0 : Dev Cert.ReferenceIdeal.nD).tc : Thread Cert.ReferenceIdeal.nD Cert.ReferenceIdeal.τ).loc Cert.ReferenceIdeal.main_arg0)) :
    Buf (Elt Ideal) (((0 : Dev Cert.ReferenceIdeal.nD).tc : Thread Cert.ReferenceIdeal.nD Cert.ReferenceIdeal.τ).loc Cert.ReferenceIdeal.main_v1) :=
  halvesFn X

theorem halves_apply (X : Whole) (a b : Fin 256) :
    (show EReal from halves X (ix2 a b)) = (show EReal from X (ix2 (lo a) b)) + (show EReal from X (ix2 (hi a) b)) := rfl

/-! ## The one-device program computes `halves` -/

/-- Slab `k`, row `a`, column `b` of the folded array is row `k · 256 + a`, column `b` of the whole:
    slab 0 is the upper half, -/
theorem fold_idx_zero (i : (⟨2, ![256, 256]⟩ : Shape).Idx) :
    Cert.ReferenceIdeal.Read.idx_main_v0 (Cert.ReferenceIdeal.Read.idx_main_v1 i 0) = ix2 (lo (i 0)) (i 1) := by
  have h0 := idx2_lt0 i
  have h1 := idx2_lt1 i
  funext a
  refine Fin.ext ?_
  match a with
  | ⟨0, _⟩ => show (((0 : Nat) * 256 + (i 0).val) * 256 + (i 1).val) / 256 = (i 0).val; omega
  | ⟨1, _⟩ => show (((0 : Nat) * 256 + (i 0).val) * 256 + (i 1).val) % 256 = (i 1).val; omega

/-- slab 1 the lower half. -/
theorem fold_idx_one (i : (⟨2, ![256, 256]⟩ : Shape).Idx) :
    Cert.ReferenceIdeal.Read.idx_main_v0 (Cert.ReferenceIdeal.Read.idx_main_v1 i 1) = ix2 (hi (i 0)) (i 1) := by
  have h0 := idx2_lt0 i
  have h1 := idx2_lt1 i
  funext a
  refine Fin.ext ?_
  match a with
  | ⟨0, _⟩ => show (((1 : Nat) * 256 + (i 0).val) * 256 + (i 1).val) / 256 = (i 0).val + 256; omega
  | ⟨1, _⟩ => show (((1 : Nat) * 256 + (i 0).val) * 256 + (i 1).val) % 256 = (i 1).val; omega

/-- The sum over the slab axis, started from zero, of the folded array is the sum of the halves. -/
theorem stage_eq_halves (X : Whole) : Cert.ReferenceIdeal.Read.val_main_v1 (F := Ideal) X = halves X := by
  funext i
  rw [Cert.ReferenceIdeal.Read.val_main_v1_apply, Fin.sum_univ_two,
    Cert.ReferenceIdeal.Read.val_main_v0_apply, Cert.ReferenceIdeal.Read.val_main_v0_apply,
    Cert.ReferenceIdeal.Read.val_main_cst_apply, fold_idx_zero, fold_idx_one]
  show Ideal.ofBits .f32 0x00000000#32
      + ((show EReal from X (ix2 (lo (i 0)) (i 1))) + (show EReal from X (ix2 (hi (i 0)) (i 1)))) = _
  rw [Ideal.ofBits_zero_f32, zero_add]
  rfl

theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1)
          = halves (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run _ _ _).mono
    (fun _ h => ⟨((h 0).1.trans (Cert.ReferenceIdeal.Read.val_main_v1_eq _)).trans (stage_eq_halves _), (h 0).2⟩)
    (Cert.ReferenceIdeal.Value.run (F := Ideal) m' g')

/-- The one-device program runs and leaves its argument as it found it. -/
theorem frame_ref : Cert.frame_ReferenceIdeal :=
  fun m ρ _ => (θ_run _ _ _).mono (fun _ h c => (h c).2) (Cert.ReferenceIdeal.Value.run (F := Ideal) m ρ)

/-! ## Own half plus the partner's half, on every device -/

/-- the bit-flipped partner on the 8-device mesh -/
def peer (c : Fin 8) : Fin 8 := ⟨(4 * (c.val / 4) + 2 * ((c.val / 2) % 2) + 1) - (c.val % 2), by have := c.isLt; omega⟩

/-- Along the rows the array is cut by the last mesh axis: device `c` holds half `c % 2`; -/
theorem mesh0 : ∀ c : Fin 8, ((Layout.meshBlock [2, 2, 2] ![[2], []] c) 0).val = c.val % 2 := by decide
/-- along the columns it is not cut. -/
theorem mesh1 : ∀ c : Fin 8, ((Layout.meshBlock [2, 2, 2] ![[2], []] c) 1).val = 0 := by decide
/-- The partner holds the other half. -/
theorem peer_mod : ∀ c : Fin 8, (peer c).val % 2 = 1 - c.val % 2 := by decide

/-- The row of the whole array that row `a` of device `c`'s half is. -/
abbrev rowOf (c : Fin 8) (a : Fin 256) : Fin 512 := ⟨(c.val % 2) * 256 + a.val, by have := a.isLt; omega⟩

/-- Device `c`'s block read at an index: the whole array `c % 2` halves further down. -/
theorem blk_apply (X : (⟨2, ![512, 256]⟩ : Shape).Idx → EReal) (c : Fin 8) (i : (⟨2, ![256, 256]⟩ : Shape).Idx) :
    (Layout.blockN ⟨2, ![256, 256]⟩ ⟨2, ![512, 256]⟩ (Layout.meshBlock [2, 2, 2] ![[2], []] c) X) i
      = X (ix2 (rowOf c (i 0)) (i 1)) := by
  show X _ = X _
  refine congrArg X (funext fun a => Fin.ext ?_)
  match a with
  | ⟨0, _⟩ =>
    show ((Layout.meshBlock [2, 2, 2] ![[2], []] c) 0).val * 256 + (i 0).val = (c.val % 2) * 256 + (i 0).val
    rw [mesh0]
  | ⟨1, _⟩ =>
    show ((Layout.meshBlock [2, 2, 2] ![[2], []] c) 1).val * 256 + (i 1).val = (i 1).val
    rw [mesh1]; omega

/-- Own block plus the partner's block is the sum of the halves, whichever half is one's own. -/
theorem blk_add_peer (X : (⟨2, ![512, 256]⟩ : Shape).Idx → EReal) (c : Fin 8) :
    (fun i => (Layout.blockN ⟨2, ![256, 256]⟩ ⟨2, ![512, 256]⟩ (Layout.meshBlock [2, 2, 2] ![[2], []] c) X) i
        + (Layout.blockN ⟨2, ![256, 256]⟩ ⟨2, ![512, 256]⟩ (Layout.meshBlock [2, 2, 2] ![[2], []] (peer c)) X) i)
      = halvesFn X := by
  funext i
  rw [blk_apply, blk_apply]
  unfold halvesFn
  have hp := peer_mod c
  rcases Nat.mod_two_eq_zero_or_one c.val with h | h
  · have e1 : rowOf c (i 0) = lo (i 0) := Fin.ext (by show (c.val % 2) * 256 + (i 0).val = (i 0).val; omega)
    have e2 : rowOf (peer c) (i 0) = hi (i 0) :=
      Fin.ext (by show ((peer c).val % 2) * 256 + (i 0).val = (i 0).val + 256; omega)
    rw [e1, e2]
  · have e1 : rowOf c (i 0) = hi (i 0) := Fin.ext (by show (c.val % 2) * 256 + (i 0).val = (i 0).val + 256; omega)
    have e2 : rowOf (peer c) (i 0) = lo (i 0) :=
      Fin.ext (by show ((peer c).val % 2) * 256 + (i 0).val = (i 0).val; omega)
    rw [e1, e2]
    exact add_comm (G := EReal) _ _

/-- The same over the one-device program's argument: on every device, own block + partner's block
    is that program's result. -/
theorem block_add_peer (X : Buf (Elt Ideal) (((0 : Dev Cert.ReferenceIdeal.nD).tc : Thread Cert.ReferenceIdeal.nD Cert.ReferenceIdeal.τ).loc Cert.ReferenceIdeal.main_arg0)) (c : Fin 8) :
    (fun i => (show EReal from (Layout.blockN ⟨2, ![256, 256]⟩ ⟨2, ![512, 256]⟩ (Layout.meshBlock [2, 2, 2] ![[2], []] c) X) i)
        + (show EReal from (Layout.blockN ⟨2, ![256, 256]⟩ ⟨2, ![512, 256]⟩ (Layout.meshBlock [2, 2, 2] ![[2], []] (peer c)) X) i))
      = halves X :=
  blk_add_peer X c

/-- info: 'Cert.RefValue.ref_run' depends on axioms: [propext, Classical.choice, Quot.sound] -/
#guard_msgs in #print axioms ref_run
/-- info: 'Cert.RefValue.block_add_peer' depends on axioms: [propext, Classical.choice, Quot.sound] -/
#guard_msgs in #print axioms block_add_peer
/-- info: 'Cert.RefValue.frame_ref' depends on axioms: [propext, Classical.choice, Quot.sound] -/
#guard_msgs in #print axioms frame_ref

end Cert.RefValue

end
-- ==== Proof.lean ====
/-
  The claim, assembled. On the mesh of eight devices each device holds one of the two 256-row halves of the input
  (the half its last mesh coordinate names) and exchanges it with the partner that holds the other half; every device
  ends with the sum of the two halves, which is what the one-device reference computes from the whole input
  (the sum over the leading axis of the input reshaped to two 256-row slabs).

  The three frames: the kernel's run (at the word level and over the extended reals) leaves each device's argument block
  as it was — the staged copy is only read —, and the reference's run leaves its argument unchanged. The idealization
  rewrote nothing. Over the extended reals a device's result block is its own block plus its partner's, entry by entry,
  which is the reference's result since addition of extended reals is commutative.
-/
import proofs.«900703_g7700000000000704_dist_ar_v7x_xyz2x2x2_z_m256_n256_f32_1_alg».proof.Defs
import proofs.«900703_g7700000000000704_dist_ar_v7x_xyz2x2x2_z_m256_n256_f32_1_alg».proof.Proof.Gen.Kernel
import proofs.«900703_g7700000000000704_dist_ar_v7x_xyz2x2x2_z_m256_n256_f32_1_alg».proof.Proof.Gen.Kernel.Skeleton
import proofs.«900703_g7700000000000704_dist_ar_v7x_xyz2x2x2_z_m256_n256_f32_1_alg».proof.Proof.Gen.Kernel.Launch
import proofs.«900703_g7700000000000704_dist_ar_v7x_xyz2x2x2_z_m256_n256_f32_1_alg».proof.Proof.Gen.Kernel.Points
import proofs.«900703_g7700000000000704_dist_ar_v7x_xyz2x2x2_z_m256_n256_f32_1_alg».proof.Proof.Gen.Kernel.Frame
import proofs.«900703_g7700000000000704_dist_ar_v7x_xyz2x2x2_z_m256_n256_f32_1_alg».proof.Proof.Gen.KernelIdeal
import proofs.«900703_g7700000000000704_dist_ar_v7x_xyz2x2x2_z_m256_n256_f32_1_alg».proof.Proof.Gen.KernelIdeal.Skeleton
import proofs.«900703_g7700000000000704_dist_ar_v7x_xyz2x2x2_z_m256_n256_f32_1_alg».proof.Proof.Gen.KernelIdeal.Launch
import proofs.«900703_g7700000000000704_dist_ar_v7x_xyz2x2x2_z_m256_n256_f32_1_alg».proof.Proof.Gen.KernelIdeal.Points
import proofs.«900703_g7700000000000704_dist_ar_v7x_xyz2x2x2_z_m256_n256_f32_1_alg».proof.Proof.Gen.KernelIdeal.Frame
import proofs.«900703_g7700000000000704_dist_ar_v7x_xyz2x2x2_z_m256_n256_f32_1_alg».proof.Proof.Gen.ReferenceIdeal
import proofs.«900703_g7700000000000704_dist_ar_v7x_xyz2x2x2_z_m256_n256_f32_1_alg».proof.Proof.Gen.Pre_finite_inputs_Kernel
import proofs.«900703_g7700000000000704_dist_ar_v7x_xyz2x2x2_z_m256_n256_f32_1_alg».proof.Proof.Gen.Pre_finite_inputs_ReferenceIdeal
import proofs.«900703_g7700000000000704_dist_ar_v7x_xyz2x2x2_z_m256_n256_f32_1_alg».proof.Proof.KernelBody
import proofs.«900703_g7700000000000704_dist_ar_v7x_xyz2x2x2_z_m256_n256_f32_1_alg».proof.Proof.KernelLaunch
import proofs.«900703_g7700000000000704_dist_ar_v7x_xyz2x2x2_z_m256_n256_f32_1_alg».proof.Proof.KernelIdealBody
import proofs.«900703_g7700000000000704_dist_ar_v7x_xyz2x2x2_z_m256_n256_f32_1_alg».proof.Proof.KernelIdealLaunch
import proofs.«900703_g7700000000000704_dist_ar_v7x_xyz2x2x2_z_m256_n256_f32_1_alg».proof.Proof.AlgValue
import proofs.«900703_g7700000000000704_dist_ar_v7x_xyz2x2x2_z_m256_n256_f32_1_alg».proof.Proof.RefValue
import Idealize.ShloMosaic.Adequacy
import Idealize.ShloMosaic.Init

noncomputable section

namespace Cert.Proof

open Idealize.ShloMosaic Idealize.SL.Sem

/-- The word-level kernel runs to the end on every device and each device's argument block ends as it began. -/
theorem frame_k : Cert.frame_Kernel := fun m ρ _ =>
  (θ_run (Cert.Kernel.defs (F := Bits)) _ _).mono
    (fun r h c => (h c (0 : Fin 2)).trans (Cert.KernelAR.finalA_x m ρ c))
    (Cert.KernelAR.run_main_of m ρ (Cert.KernelAR.body_obligation m ρ))

/-- The same of the kernel read over the extended reals. -/
theorem frame_ki : Cert.frame_KernelIdeal := fun m ρ _ =>
  (θ_run (Cert.KernelIdeal.defs (F := Ideal)) _ _).mono
    (fun r h c => (h c (0 : Fin 2)).trans (Cert.KernelIdealAR.finalA_x m ρ c))
    (Cert.KernelIdealAR.run_main_of m ρ (Cert.KernelIdealAR.body_obligation m ρ))

/-- Over the extended reals every device's result is the sum of the two halves of the whole input: its own block plus
    the partner's, the blocks being the halves the devices' last coordinates name. -/
theorem alg : Cert.algebraic_KernelIdeal_ReferenceIdeal := by
  intro m ρ m' ρ' _ hagree
  refine ⟨Cert.RefValue.halves (m' (((0 : Dev Cert.ReferenceIdeal.nD).tc : Thread Cert.ReferenceIdeal.nD Cert.ReferenceIdeal.τ).loc Cert.ReferenceIdeal.main_arg0)), ?_,
    Cert.RefValue.ref_run m' ρ'⟩
  refine (θ_run (Cert.KernelIdeal.defs (F := Ideal)) _ _).mono (fun r h c => ⟨?_, (h c (0 : Fin 2)).trans (Cert.KernelIdealAR.finalA_x m ρ c)⟩)
    (Cert.KernelIdealAR.run_main_of m ρ (Cert.KernelIdealAR.body_obligation m ρ))
  refine (h c (1 : Fin 2)).trans ((Cert.KernelIdealAR.finalA_out m ρ c).trans ?_)
  funext i
  refine (Cert.KernelIdealAR.outAt_apply m ρ c i).trans ?_
  rw [Cert.KernelIdealAR.xstg_eq, Cert.KernelIdealAR.xstg_eq, hagree c, hagree (Cert.KernelIdealAR.peer c)]
  exact congrFun (Cert.RefValue.block_add_peer _ c) i

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.RefValue.frame_ref, trivial, alg⟩

end Cert.Proof

end
